-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S3x8192x8192 : Shape := ⟨3, ![3, 8192, 8192]⟩
abbrev S3x256x256 : Shape := ⟨3, ![3, 256, 256]⟩
abbrev S3x256 : Shape := ⟨2, ![3, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S3x8192x8192 : S_.BroadcastsInDim S3x8192x8192 (![] : Fin 0 → Fin S3x8192x8192.rank)
  reducesTo_S3x8192x8192_S_d0_1_2 : S3x8192x8192.ReducesTo [0, 1, 2] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  main_v18

def fn {F : FTy → Type} [FloatOps F] (main_arg0 : FVec F S8192x256 .f32) (main_arg1 : FVec F S3x8192x8192 .f32) (main_arg2 : FVec F S3x256x256 .f32) (main_arg3 : FVec F S3x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S3x8192x8192 .f32 := Host.absf main_arg1
  let main_cst_0 : FVec F S_ .f32 := constant S_ .f32 0x7F800000#32
  let main_v5 : FVec F S3x8192x8192 .f32 := broadcastInDim S3x8192x8192 ![] bcast_S_S3x8192x8192 main_cst_0
  let main_v6 : IVec S3x8192x8192 1 := cmpf .olt main_v4 main_v5
  let main_c_1 : IVec S_ 1 := constantI S_ 1 1#1
  let main_v7 : IVec S_ 1 := (fun x v => Host.reduce IntOp.andi x v reducesTo_S3x8192x8192_S_d0_1_2 h_S_) main_v6 main_c_1
  let main_v8 : IVec S_ 1 := andi main_v3 main_v7
  let main_v9 : FVec F S3x256x256 .f32 := Host.absf main_arg2
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256 .f32 := Host.absf main_arg3
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_v13 main_v16
-- ==== Kernel.lean ====
abbrev S8192x256 : Shape := ⟨2, ![8192, 256]⟩
abbrev S3x8192x8192 : Shape := ⟨3, ![3, 8192, 8192]⟩
abbrev S3x256x256 : Shape := ⟨3, ![3, 256, 256]⟩
abbrev S3x256 : Shape := ⟨2, ![3, 256]⟩
abbrev S3x512x1024 : Shape := ⟨3, ![3, 512, 1024]⟩
abbrev S1024x256 : Shape := ⟨2, ![1024, 256]⟩
abbrev S512x256 : Shape := ⟨2, ![512, 256]⟩
abbrev S3x512x256 : Shape := ⟨3, ![3, 512, 256]⟩
abbrev S1x512x1024 : Shape := ⟨3, ![1, 512, 1024]⟩
abbrev S512x1024 : Shape := ⟨2, ![512, 1024]⟩
abbrev S1x512x256 : Shape := ⟨3, ![1, 512, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 6
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S3x8192x8192, .f32⟩
  | .hbm, ⟨2, _⟩ => ⟨S3x256x256, .f32⟩
  | .hbm, ⟨3, _⟩ => ⟨S3x256, .f32⟩
  | .hbm, ⟨4, _⟩ => ⟨S3x256x256, .f32⟩
  | .hbm, ⟨5, _⟩ => ⟨S8192x256, .f32⟩
  | .local _ .vmem, ⟨0, _⟩ => ⟨S3x512x1024, .f32⟩
  | .local _ .vmem, ⟨1, _⟩ => ⟨S3x512x1024, .f32⟩
  | .local _ .vmem, ⟨2, _⟩ => ⟨S1024x256, .f32⟩
  | .local _ .vmem, ⟨3, _⟩ => ⟨S1024x256, .f32⟩
  | .local _ .vmem, ⟨4, _⟩ => ⟨S512x256, .f32⟩
  | .local _ .vmem, ⟨5, _⟩ => ⟨S512x256, .f32⟩
  | .local _ .vmem, ⟨6, _⟩ => ⟨S3x256x256, .f32⟩
  | .local _ .vmem, ⟨7, _⟩ => ⟨S3x256, .f32⟩
  | .local _ .vmem, ⟨8, _⟩ => ⟨S512x256, .f32⟩
  | .local _ .vmem, ⟨9, _⟩ => ⟨S512x256, .f32⟩
  | .local _ .vmem, ⟨10, _⟩ => ⟨S3x512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_29 : BitVec 32 := 0#32
  let v37 : BitVec 1 := Scalar.cmpi .ne v36 c0_i32_29
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S3x256x256_S3x256x256_0_2_1 : S3x256x256.Transposes [0, 2, 1] S3x256x256
  inb_S3x512x256_S3x512x256_0_0_0 : ∀ a, (![0, 0, 0] : Fin 3 → Nat) a + S3x512x256.size a ≤ S3x512x256.size a
  h_S3x512x256 : 0 < S3x512x256.numel
  shapeCasts_S3x512x256_S3x512x256 : S3x512x256.ShapeCasts S3x512x256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S3x512x1024_S1x512x1024_0_0_0 : ∀ a, (![0, 0, 0] : Fin 3 → Nat) a + S1x512x1024.size a ≤ S3x512x1024.size a
  h_S1x512x1024 : 0 < S1x512x1024.numel
  shapeCasts_S1x512x1024_S512x1024 : S1x512x1024.ShapeCasts S512x1024
  inb_S3x512x256_S1x512x256_0_0_0 : ∀ a, (![0, 0, 0] : Fin 3 → Nat) a + S1x512x256.size a ≤ S3x512x256.size a
  h_S1x512x256 : 0 < S1x512x256.numel
  shapeCasts_S1x512x256_S512x256 : S1x512x256.ShapeCasts S512x256
  shapeCasts_S512x256_S1x512x256 : S512x256.ShapeCasts S1x512x256
  inb_S3x512x1024_S1x512x1024_1_0_0 : ∀ a, (![1, 0, 0] : Fin 3 → Nat) a + S1x512x1024.size a ≤ S3x512x1024.size a
  inb_S3x512x256_S1x512x256_1_0_0 : ∀ a, (![1, 0, 0] : Fin 3 → Nat) a + S1x512x256.size a ≤ S3x512x256.size a
  inb_S3x512x1024_S1x512x1024_2_0_0 : ∀ a, (![2, 0, 0] : Fin 3 → Nat) a + S1x512x1024.size a ≤ S3x512x1024.size a
  inb_S3x512x256_S1x512x256_2_0_0 : ∀ a, (![2, 0, 0] : Fin 3 → Nat) a + S1x512x256.size a ≤ S3x512x256.size a
  inb_S512x256_S512x256_0_0 : ∀ a, (![0, 0] : Fin 2 → Nat) a + S512x256.size a ≤ S512x256.size a
  h_S512x256 : 0 < S512x256.numel
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256x256_S1x256x256_1_0_0 : ∀ a, (![1, 0, 0] : Fin 3 → Nat) a + S1x256x256.size a ≤ S3x256x256.size a
  inb_S3x256x256_S1x256x256_2_0_0 : ∀ a, (![2, 0, 0] : Fin 3 → Nat) a + S1x256x256.size a ≤ S3x256x256.size a
  inb_S3x256_S1x256_0_0 : ∀ a, (![0, 0] : Fin 2 → Nat) a + S1x256.size a ≤ S3x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S3x256_S1x256_1_0 : ∀ a, (![1, 0] : Fin 2 → Nat) a + S1x256.size a ≤ S3x256.size a
  inb_S3x256_S1x256_2_0 : ∀ a, (![2, 0] : Fin 2 → Nat) a + S1x256.size a ≤ S3x256.size a
  dot_S512x1024_S1024x256_S512x256_1_0_0_1_n_n_wf : DotDims.WF S512x1024 S1024x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x512x1024.size a ≤ S3x8192x8192.size a
  hwx0_0 : ∀ i : grid0.Coords, EltTy.bits .f32 = 32 ∨ (Rect.block (s := S3x8192x8192) S3x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256x256.size a ≤ S3x256x256.size a
  hwx0_3 : ∀ i : grid0.Coords, EltTy.bits .f32 = 32 ∨ (Rect.block (s := S3x256x256) S3x256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x256.size a ≤ S3x256.size a
  hwx0_4 : ∀ i : grid0.Coords, EltTy.bits .f32 = 32 ∨ (Rect.block (s := S3x256) S3x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x256.size a
  hwx0_5 : ∀ i : grid0.Coords, EltTy.bits .f32 = 32 ∨ (Rect.block (s := S8192x256) S512x256.size (cc0_transform_5 i) (hinb0_5 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S3x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S3x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S3x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S3x8192x8192 : Shape := ⟨3, ![3, 8192, 8192]⟩
abbrev S3x256x256 : Shape := ⟨3, ![3, 256, 256]⟩
abbrev S3x256 : Shape := ⟨2, ![3, 256]⟩
abbrev S3x8192x256 : Shape := ⟨3, ![3, 8192, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x8192x256 : Shape := ⟨3, ![1, 8192, 256]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S3x8192x8192, .f32⟩
  | .hbm, ⟨2, _⟩ => ⟨S3x256x256, .f32⟩
  | .hbm, ⟨3, _⟩ => ⟨S3x256, .f32⟩
  | .hbm, ⟨4, _⟩ => ⟨S3x8192x256, .f32⟩
  | .hbm, ⟨5, _⟩ => ⟨S1x256x256, .f32⟩
  | .hbm, ⟨6, _⟩ => ⟨S256x256, .f32⟩
  | .hbm, ⟨7, _⟩ => ⟨S256x256, .f32⟩
  | .hbm, ⟨8, _⟩ => ⟨S8192x256, .f32⟩
  | .hbm, ⟨9, _⟩ => ⟨S1x256, .f32⟩
  | .hbm, ⟨10, _⟩ => ⟨S256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S1x8192x256, .f32⟩
  | .hbm, ⟨15, _⟩ => ⟨S8192x256, .f32⟩
  | .hbm, ⟨16, _⟩ => ⟨S1x8192x256, .f32⟩
  | .hbm, ⟨17, _⟩ => ⟨S8192x256, .f32⟩
  | .hbm, ⟨18, _⟩ => ⟨S1x8192x256, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S1x256x256, .f32⟩
  | .hbm, ⟨23, _⟩ => ⟨S256x256, .f32⟩
  | .hbm, ⟨24, _⟩ => ⟨S256x256, .f32⟩
  | .hbm, ⟨25, _⟩ => ⟨S8192x256, .f32⟩
  | .hbm, ⟨26, _⟩ => ⟨S8192x256, .f32⟩
  | .hbm, ⟨27, _⟩ => ⟨S1x256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S1x256, .f32⟩
  | .hbm, ⟨33, _⟩ => ⟨S8192x256, .f32⟩
  | .hbm, ⟨34, _⟩ => ⟨S8192x256, .f32⟩
  | .hbm, ⟨35, _⟩ => ⟨S1x8192x256, .f32⟩
  | .hbm, ⟨36, _⟩ => ⟨S8192x256, .f32⟩
  | .hbm, ⟨37, _⟩ => ⟨S1x8192x256, .f32⟩
  | .hbm, ⟨38, _⟩ => ⟨S8192x256, .f32⟩
  | .hbm, ⟨39, _⟩ => ⟨S8192x256, .f32⟩
  | .hbm, ⟨40, _⟩ => ⟨S1x8192x256, .f32⟩
  | .hbm, ⟨41, _⟩ => ⟨S8192x256, .f32⟩
  | .hbm, ⟨42, _⟩ => ⟨S1x8192x256, .f32⟩
  | .hbm, ⟨43, _⟩ => ⟨S8192x256, .f32⟩
  | .hbm, ⟨44, _⟩ => ⟨S8192x256, .f32⟩
  | .hbm, ⟨45, _⟩ => ⟨S1x8192x256, .f32⟩
  | .hbm, ⟨46, _⟩ => ⟨S8192x256, .f32⟩
  | .hbm, ⟨47, _⟩ => ⟨S1x8192x256, .f32⟩
  | .hbm, ⟨48, _⟩ => ⟨S8192x256, .f32⟩
  | .hbm, ⟨49, _⟩ => ⟨S8192x256, .f32⟩
  | .hbm, ⟨50, _⟩ => ⟨S1x8192x256, .f32⟩
  | .hbm, ⟨51, _⟩ => ⟨S8192x256, .f32⟩
  | .hbm, ⟨52, _⟩ => ⟨S1x8192x256, .f32⟩
  | .hbm, ⟨53, _⟩ => ⟨S8192x256, .f32⟩
  | .hbm, ⟨54, _⟩ => ⟨S8192x256, .f32⟩
  | .hbm, ⟨55, _⟩ => ⟨S1x8192x256, .f32⟩
  | .hbm, ⟨56, _⟩ => ⟨S8192x256, .f32⟩
  | .hbm, ⟨57, _⟩ => ⟨S1x8192x256, .f32⟩
  | .hbm, ⟨58, _⟩ => ⟨S8192x256, .f32⟩
  | .hbm, ⟨59, _⟩ => ⟨S8192x256, .f32⟩
  | .hbm, ⟨60, _⟩ => ⟨S1x8192x256, .f32⟩
  | .hbm, ⟨61, _⟩ => ⟨S8192x256, .f32⟩
  | .hbm, ⟨62, _⟩ => ⟨S1x8192x256, .f32⟩
  | .hbm, ⟨63, _⟩ => ⟨S8192x256, .f32⟩
  | .hbm, ⟨64, _⟩ => ⟨S8192x256, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S8192x256, .f32⟩
  | .hbm, ⟨70, _⟩ => ⟨S1x256x256, .f32⟩
  | .hbm, ⟨71, _⟩ => ⟨S256x256, .f32⟩
  | .hbm, ⟨72, _⟩ => ⟨S256x256, .f32⟩
  | .hbm, ⟨73, _⟩ => ⟨S8192x256, .f32⟩
  | .hbm, ⟨74, _⟩ => ⟨S8192x256, .f32⟩
  | .hbm, ⟨75, _⟩ => ⟨S1x256, .f32⟩
  | .hbm, ⟨76, _⟩ => ⟨S256, .f32⟩
  | .hbm, ⟨77, _⟩ => ⟨S_, .f32⟩
  | .hbm, ⟨78, _⟩ => ⟨S256, .f32⟩
  | .hbm, ⟨79, _⟩ => ⟨S256, .f32⟩
  | .hbm, ⟨80, _⟩ => ⟨S1x256, .f32⟩
  | .hbm, ⟨81, _⟩ => ⟨S8192x256, .f32⟩
  | .hbm, ⟨82, _⟩ => ⟨S8192x256, .f32⟩
  | .hbm, ⟨83, _⟩ => ⟨S_, .f32⟩
  | .hbm, ⟨84, _⟩ => ⟨S8192x256, .f32⟩
  | .hbm, ⟨85, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_cst_0 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_call0_cst : Ref sig .tc := ⟨.hbm, 83, rfl⟩
abbrev main_call0_v0 : Ref sig .tc := ⟨.hbm, 84, rfl⟩
abbrev main_v77 : Ref sig .tc := ⟨.hbm, 85, rfl⟩

abbrev nD : Nat := 1
abbrev τ : Topo := Topo.v7x

variable {F : FTy → Type} [FloatOps F]

class Facts₀ : Prop where
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  slices_S3x8192x256_S1x8192x256_0_0_0 : S3x8192x256.Slices ![0, 0, 0] S1x8192x256
  shapeCasts_S1x8192x256_S8192x256 : S1x8192x256.ShapeCasts S8192x256
  slices_S3x8192x256_S1x8192x256_1_0_0 : S3x8192x256.Slices ![1, 0, 0] S1x8192x256
  slices_S3x8192x256_S1x8192x256_2_0_0 : S3x8192x256.Slices ![2, 0, 0] S1x8192x256
  slices_S3x256x256_S1x256x256_1_0_0 : S3x256x256.Slices ![1, 0, 0] S1x256x256
  slices_S3x256_S1x256_1_0 : S3x256.Slices ![1, 0] S1x256
  bcast_S_S256 : S_.BroadcastsInDim S256 (![] : Fin 0 → Fin S256.rank)
  slices_S3x256x256_S1x256x256_2_0_0 : S3x256x256.Slices ![2, 0, 0] S1x256x256
  slices_S3x256_S1x256_2_0 : S3x256.Slices ![2, 0] S1x256
  bcast_S_S8192x256 : S_.BroadcastsInDim S8192x256 (![] : Fin 0 → Fin S8192x256.rank)
  dot_S3x8192x8192_S8192x256_S3x8192x256_2_0_01_1_n_n_wf : DotDims.WF S3x8192x8192 S8192x256 S3x8192x256 [2] [0] [0, 1] [1] [] []
  dot_S8192x256_S256x256_S8192x256_1_0_0_1_n_n_wf : DotDims.WF S8192x256 S256x256 S8192x256 [1] [0] [0] [1] [] []

variable [Facts₀]

def dot_S3x8192x8192_S8192x256_S3x8192x256_2_0_01_1_n_n : DotDims S3x8192x8192 S8192x256 S3x8192x256 where
  lhsContracting := [2]
  rhsContracting := [0]
  lhsNonContracting := [0, 1]
  rhsNonContracting := [1]
  lhsBatch := []
  rhsBatch := []
  wf := dot_S3x8192x8192_S8192x256_S3x8192x256_2_0_01_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.KernelFrame.Setup.lean ====
import proofs.«104423_j26173530702105_1_alg».proof.Proof.Gen.Kernel.Launch
import proofs.«104423_j26173530702105_1_alg».proof.Proof.Gen.Kernel.Skeleton
import proofs.«104423_j26173530702105_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region

The program transposes the weights on the host and then enters its one kernel region; the region finds
every argument array as launched and the transposed weights in `main_v0`. -/

/-- Core `c`'s buffers when the region is entered: after the host transpose. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main reduces to the region entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose before the region writes only its own result: the region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-- The transpose before the region writes only its own result: the region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))

/-- The transpose before the region writes only its own result: the region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-- The transpose before the region writes only its own result: the region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block of the array at every point, fetched
    there or not (an unfetched point has the block index of the point before). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block of the array at every point, fetched
    there or not (an unfetched point has the block index of the point before). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block of the array at every point, fetched
    there or not (an unfetched point has the block index of the point before). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the window's block of the array at every point, fetched
    there or not (an unfetched point has the block index of the point before). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the window's block of the array at every point, fetched
    there or not (an unfetched point has the block index of the point before). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two branches of the body, over the grid

The grid is 16 row tiles by 8 contraction steps, the contraction step the fast axis: point `t` is row tile
`t / 8` at step `t % 8`. The body zeroes its accumulators at step 0 and writes the output tile at step 7. -/

/-- The body's first branch is taken: the point is a row tile's first contraction step. -/
abbrev isFirstK (i : grid0.Coords) : Prop := (Scalar.cmpi .ne (Scalar.extui (Scalar.cmpi .eq (BitVec.ofNat 32 (i 1).val) 0#32)) 0#32) = 1#1
theorem isFirstK_iff : ∀ t : Fin cfg0.N, isFirstK (grid0.coords t) ↔ t.val % 8 = 0 :=
  (by decide +kernel : ∀ t : Fin grid0.N, isFirstK (grid0.coords t) ↔ t.val % 8 = 0)

/-- The body's second branch is taken: the point is a row tile's last contraction step. -/
abbrev isLastK (i : grid0.Coords) : Prop := k0_cond2 i = 1#1
theorem isLastK_iff : ∀ t : Fin cfg0.N, isLastK (grid0.coords t) ↔ t.val % 8 = 7 :=
  (by decide +kernel : ∀ t : Fin grid0.N, isLastK (grid0.coords t) ↔ t.val % 8 = 7)

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Before a row tile's last step the output window is idle and not written back; at the last step it is live. -/
theorem outIdle : ∀ t : Fin cfg0.N, ¬isLastK (grid0.coords t) → cfg0.idle 5 (grid0.coords t) = true := by decide +kernel
theorem outNoFlush : ∀ t : Fin cfg0.N, ¬isLastK (grid0.coords t) → (cfg0.win 5).flush t = false := by decide +kernel
theorem outLive : ∀ t : Fin cfg0.N, isLastK (grid0.coords t) → cfg0.idle 5 (grid0.coords t) = false := by decide +kernel

/-! ## The memrefs the body is called with -/

abbrev ms0 (t : Fin cfg0.N) : Memref sig .tc .vmem S3x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x256 .f32 := win0_5.stage (cfg0.slots t 5)
abbrev hs5 (t : Fin cfg0.N) : (ms5 t).IsWhole := hstage0_5 ((cfg0.slots t 5).cast nbuf0_5)
/-- The accumulator scratch: three 512×256 partial products carried from step to step. -/
abbrev accM : Memref sig .tc .vmem S3x512x256 .f32 := Memref.whole cc0_scratch0
abbrev accV : View sig .tc .vmem S3x512x256 .f32 := accM.view
/-- One staging buffer of the output window, through which its contents are stated. -/
abbrev outV : View sig .tc .vmem S512x256 .f32 := (Memref.whole cc0_stg5_0 : Memref sig .tc .vmem S512x256 .f32).view

/-- The one scoped buffer that is no staging buffer is the accumulator scratch. -/
theorem scopedRest_acc (c : Dev nD) :
    (Pipeline.scopedRest spec0 c : sProp 𝕄) = iprop(∃ d, owns (c : Thread nD τ) accM fullShare d) := by
  rw [scopedRest0_eq]; simp only [accM, owns_whole]; try rfl

end Cert.Kernel.Hand

end
-- ==== Proof.KernelFrame.RunFirst.lean ====
import proofs.«104423_j26173530702105_1_alg».proof.Proof.KernelFrame.Setup

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a row tile's FIRST contraction step (the reset taken, the output branch not): on whole staging
    memrefs holding the input blocks, the output buffer at anything (handed back untouched) and the scratch at
    anything, it runs to the end leaving the inputs as they were and the scratch with the pieces `LS` written:
    the zero fill, then one 512×256 slab per adjacency power. -/
noncomputable def runFirst (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : isFirstK i) (hc1 : ¬isLastK i)
    (x0 : Vec F S3x512x1024 .f32) (x1 : Vec F S1024x256 .f32) (x2 : Vec F S512x256 .f32) (x3 : Vec F S3x256x256 .f32) (x4 : Vec F S3x256 .f32) :
    { LS : List (View.Piece (Elt F) S3x512x256 .f32) //
      ∀ (xo : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun xo E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Hand

end
-- ==== Proof.KernelFrame.RunMid.lean ====
import proofs.«104423_j26173530702105_1_alg».proof.Proof.KernelFrame.RunFirst

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a MIDDLE contraction step (neither branch taken): the scratch comes in at what the step before
    left (`xs`), each of its three slabs is read, increased by the step's partial product and stored back; the
    output buffer is handed back untouched. -/
noncomputable def runMid (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : ¬isLastK i)
    (x0 : Vec F S3x512x1024 .f32) (x1 : Vec F S1024x256 .f32) (x2 : Vec F S512x256 .f32) (x3 : Vec F S3x256x256 .f32) (x4 : Vec F S3x256 .f32) (xs : Vec F S3x512x256 .f32) :
    { LS : List (View.Piece (Elt F) S3x512x256 .f32) //
      ∀ (xo : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun xo E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Hand

end
-- ==== Proof.KernelFrame.RunLast.lean ====
import proofs.«104423_j26173530702105_1_alg».proof.Proof.KernelFrame.RunMid

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a row tile's LAST contraction step (the output branch taken, the reset not): the scratch comes in
    at what the step before left (`xs`) and is updated as at a middle step; then the three finished products are
    read back, combined with the skip block, the weights and the biases, and the result is stored over the whole
    output buffer (pieces `LO`). -/
noncomputable def runLast (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : isLastK i)
    (x0 : Vec F S3x512x1024 .f32) (x1 : Vec F S1024x256 .f32) (x2 : Vec F S512x256 .f32) (x3 : Vec F S3x256x256 .f32) (x4 : Vec F S3x256 .f32) (xs : Vec F S3x512x256 .f32) :
    Σ' (LO : List (View.Piece (Elt F) S512x256 .f32)), { LS : List (View.Piece (Elt F) S3x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Hand

end
-- ==== Proof.KernelFrame.Data.lean ====
import proofs.«104423_j26173530702105_1_alg».proof.Proof.KernelFrame.RunLast
import Idealize.ShloMosaic.Lib.Pipeline.Launch

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves in the accumulator scratch and in the output buffer

Each run ends with the scratch written by 512×256 slabs, one per adjacency power, that together tile it, and
(at a last step) the output buffer written whole; what a buffer then holds is its pieces read back. -/

theorem first_cover (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : isFirstK i) (hc1 : ¬isLastK i)
    (x0 : Vec F S3x512x1024 .f32) (x1 : Vec F S1024x256 .f32) (x2 : Vec F S512x256 .f32) (x3 : Vec F S3x256x256 .f32) (x4 : Vec F S3x256 .f32) (y : S3x512x256.Idx) :
    ∃ pc ∈ (runFirst c i arg2 harg2 arg3 harg3 arg4 harg4 arg5 harg5 arg6 harg6 arg7 harg7 arg8 harg8 hc0 hc1 x0 x1 x2 x3 x4).1, y ∈ pc.1.set :=
  View.cover_of_tiledL (runFirst c i arg2 harg2 arg3 harg3 arg4 harg4 arg5 harg5 arg6 harg6 arg7 harg7 arg8 harg8 hc0 hc1 x0 x1 x2 x3 x4).1 S1x512x256.size (by sl_kernel_rfl) y

/-- The scratch after a first step. -/
def accFirst (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : isFirstK i) (hc1 : ¬isLastK i)
    (x0 : Vec F S3x512x1024 .f32) (x1 : Vec F S1024x256 .f32) (x2 : Vec F S512x256 .f32) (x3 : Vec F S3x256x256 .f32) (x4 : Vec F S3x256 .f32) : Vec F S3x512x256 .f32 :=
  accV.read (Elt F) (accV.writes (Elt F) accV.junk (runFirst c i arg2 harg2 arg3 harg3 arg4 harg4 arg5 harg5 arg6 harg6 arg7 harg7 arg8 harg8 hc0 hc1 x0 x1 x2 x3 x4).1)

theorem mid_cover (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : ¬isLastK i)
    (x0 : Vec F S3x512x1024 .f32) (x1 : Vec F S1024x256 .f32) (x2 : Vec F S512x256 .f32) (x3 : Vec F S3x256x256 .f32) (x4 : Vec F S3x256 .f32) (xs : Vec F S3x512x256 .f32) (y : S3x512x256.Idx) :
    ∃ pc ∈ (runMid c i arg2 harg2 arg3 harg3 arg4 harg4 arg5 harg5 arg6 harg6 arg7 harg7 arg8 harg8 hc0 hc1 x0 x1 x2 x3 x4 xs).1, y ∈ pc.1.set :=
  View.cover_of_tiledL (runMid c i arg2 harg2 arg3 harg3 arg4 harg4 arg5 harg5 arg6 harg6 arg7 harg7 arg8 harg8 hc0 hc1 x0 x1 x2 x3 x4 xs).1 S1x512x256.size (by sl_kernel_rfl) y

/-- The scratch after a middle step, over what the step before left in it. -/
def accMid (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : ¬isLastK i)
    (x0 : Vec F S3x512x1024 .f32) (x1 : Vec F S1024x256 .f32) (x2 : Vec F S512x256 .f32) (x3 : Vec F S3x256x256 .f32) (x4 : Vec F S3x256 .f32) (xs : Vec F S3x512x256 .f32) : Vec F S3x512x256 .f32 :=
  accV.read (Elt F) (accV.writes (Elt F) accV.junk (runMid c i arg2 harg2 arg3 harg3 arg4 harg4 arg5 harg5 arg6 harg6 arg7 harg7 arg8 harg8 hc0 hc1 x0 x1 x2 x3 x4 xs).1)

theorem last_cover (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : isLastK i)
    (x0 : Vec F S3x512x1024 .f32) (x1 : Vec F S1024x256 .f32) (x2 : Vec F S512x256 .f32) (x3 : Vec F S3x256x256 .f32) (x4 : Vec F S3x256 .f32) (xs : Vec F S3x512x256 .f32) (y : S3x512x256.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1x512x256.size (by sl_kernel_rfl) y

/-- The scratch after a last step. -/
def accLast (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : isLastK i)
    (x0 : Vec F S3x512x1024 .f32) (x1 : Vec F S1024x256 .f32) (x2 : Vec F S512x256 .f32) (x3 : Vec F S3x256x256 .f32) (x4 : Vec F S3x256 .f32) (xs : Vec F S3x512x256 .f32) : Vec F S3x512x256 .f32 :=
  accV.read (Elt F) (accV.writes (Elt F) accV.junk (runLast c i arg2 harg2 arg3 harg3 arg4 harg4 arg5 harg5 arg6 harg6 arg7 harg7 arg8 harg8 hc0 hc1 x0 x1 x2 x3 x4 xs).2.1)

theorem out_cover (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : isLastK i)
    (x0 : Vec F S3x512x1024 .f32) (x1 : Vec F S1024x256 .f32) (x2 : Vec F S512x256 .f32) (x3 : Vec F S3x256x256 .f32) (x4 : Vec F S3x256 .f32) (xs : Vec F S3x512x256 .f32) (y : S512x256.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S512x256.size (by sl_kernel_rfl) y

/-- The output buffer after a last step. -/
def outLast (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : isLastK i)
    (x0 : Vec F S3x512x1024 .f32) (x1 : Vec F S1024x256 .f32) (x2 : Vec F S512x256 .f32) (x3 : Vec F S3x256x256 .f32) (x4 : Vec F S3x256 .f32) (xs : Vec F S3x512x256 .f32) : Vec F S512x256 .f32 :=
  outV.read (Elt F) (outV.writes (Elt F) outV.junk (runLast c i arg2 harg2 arg3 harg3 arg4 harg4 arg5 harg5 arg6 harg6 arg7 harg7 arg8 harg8 hc0 hc1 x0 x1 x2 x3 x4 xs).1)

/-! ## The branch hypotheses at a point, from its step `t % 8` -/

theorem first_of (t : Fin cfg0.N) (h : t.val % 8 = 0) : isFirstK (grid0.coords t) := (isFirstK_iff t).mpr h
theorem not_first_of (t : Fin cfg0.N) (h : ¬t.val % 8 = 0) : ¬isFirstK (grid0.coords t) := fun h' => h ((isFirstK_iff t).mp h')
theorem last_of (t : Fin cfg0.N) (h : t.val % 8 = 7) : isLastK (grid0.coords t) := (isLastK_iff t).mpr h
theorem not_last_of (t : Fin cfg0.N) (h : ¬t.val % 8 = 7) : ¬isLastK (grid0.coords t) := fun h' => h ((isLastK_iff t).mp h')

/-! ## The accumulator after each point -/

/-- What the scratch holds after the body at position `n`: a first step starts afresh from the point's blocks; a
    later step updates what position `n - 1` left. -/
def accAt (c : Dev nD) : (n : ℕ) → n < cfg0.N → Vec F S3x512x256 .f32
  | 0, hn =>
    accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) (first_of ⟨0, hn⟩ (Nat.zero_mod _)) (not_last_of ⟨0, hn⟩ (fun h => absurd (show (0 : ℕ) % 8 = 7 from h) (by decide))) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 8 = 0 then
      accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (first_of ⟨n + 1, hn⟩ h0) (not_last_of ⟨n + 1, hn⟩ (fun h => by have h' : (n + 1) % 8 = 7 := h; omega)) (iblk m c 0 ⟨n + 1, hn⟩) (iblk m c 1 ⟨n + 1, hn⟩) (iblk m c 2 ⟨n + 1, hn⟩) (iblk m c 3 ⟨n + 1, hn⟩) (iblk m c 4 ⟨n + 1, hn⟩)
    else if h1 : (n + 1) % 8 = 7 then
      accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (not_first_of ⟨n + 1, hn⟩ h0) (last_of ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))
    else
      accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (not_first_of ⟨n + 1, hn⟩ h0) (not_last_of ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))

/-- What position `t - 1` left (read only where `t` is no first step). -/
abbrev accPrev (c : Dev nD) (t : Fin cfg0.N) : Vec F S3x512x256 .f32 :=
  accAt m c (t.val - 1) (Nat.lt_of_le_of_lt (Nat.sub_le _ _) t.isLt)

theorem accAt_first (c : Dev nD) (t : Fin cfg0.N) (h0 : t.val % 8 = 0) :
    accAt m c t.val t.isLt = accFirst c (grid0.coords t) (ms0 t) (hs0 t) (ms1 t) (hs1 t) (ms2 t) (hs2 t) (ms3 t) (hs3 t) (ms4 t) (hs4 t) (ms5 t) (hs5 t) accM (Memref.isWhole_whole _) (first_of t h0) (not_last_of t (by omega)) (iblk m c 0 t) (iblk m c 1 t) (iblk m c 2 t) (iblk m c 3 t) (iblk m c 4 t) := by
  obtain ⟨n, hn⟩ := t
  cases n with
  | zero => rfl
  | succ n => exact (dif_pos h0).trans rfl

theorem accAt_mid (c : Dev nD) (t : Fin cfg0.N) (h0 : ¬t.val % 8 = 0) (h1 : ¬t.val % 8 = 7) :
    accAt m c t.val t.isLt = accMid c (grid0.coords t) (ms0 t) (hs0 t) (ms1 t) (hs1 t) (ms2 t) (hs2 t) (ms3 t) (hs3 t) (ms4 t) (hs4 t) (ms5 t) (hs5 t) accM (Memref.isWhole_whole _) (not_first_of t h0) (not_last_of t h1) (iblk m c 0 t) (iblk m c 1 t) (iblk m c 2 t) (iblk m c 3 t) (iblk m c 4 t) (accPrev m c t) := by
  obtain ⟨n, hn⟩ := t
  cases n with
  | zero => exact absurd (Nat.zero_mod _) h0
  | succ n => exact (dif_neg h0).trans ((dif_neg h1).trans rfl)

theorem accAt_last (c : Dev nD) (t : Fin cfg0.N) (h0 : ¬t.val % 8 = 0) (h1 : t.val % 8 = 7) :
    accAt m c t.val t.isLt = accLast c (grid0.coords t) (ms0 t) (hs0 t) (ms1 t) (hs1 t) (ms2 t) (hs2 t) (ms3 t) (hs3 t) (ms4 t) (hs4 t) (ms5 t) (hs5 t) accM (Memref.isWhole_whole _) (not_first_of t h0) (last_of t h1) (iblk m c 0 t) (iblk m c 1 t) (iblk m c 2 t) (iblk m c 3 t) (iblk m c 4 t) (accPrev m c t) := by
  obtain ⟨n, hn⟩ := t
  cases n with
  | zero => exact absurd (Nat.zero_mod _) h0
  | succ n => exact (dif_neg h0).trans ((dif_pos h1).trans rfl)

/-- What the output buffer holds after the body at point `t`: at a last step the finished tile; elsewhere the
    window is idle and nothing reads this. -/
def outAt (c : Dev nD) (t : Fin cfg0.N) : Vec F S512x256 .f32 :=
  if h1 : t.val % 8 = 7 then
    outLast c (grid0.coords t) (ms0 t) (hs0 t) (ms1 t) (hs1 t) (ms2 t) (hs2 t) (ms3 t) (hs3 t) (ms4 t) (hs4 t) (ms5 t) (hs5 t) accM (Memref.isWhole_whole _) (not_first_of t (by omega)) (last_of t h1) (iblk m c 0 t) (iblk m c 1 t) (iblk m c 2 t) (iblk m c 3 t) (iblk m c 4 t) (accPrev m c t)
  else outV.read (Elt F) outV.junk

theorem outAt_last (c : Dev nD) (t : Fin cfg0.N) (h1 : t.val % 8 = 7) :
    outAt m c t = outLast c (grid0.coords t) (ms0 t) (hs0 t) (ms1 t) (hs1 t) (ms2 t) (hs2 t) (ms3 t) (hs3 t) (ms4 t) (hs4 t) (ms5 t) (hs5 t) accM (Memref.isWhole_whole _) (not_first_of t (by omega)) (last_of t h1) (iblk m c 0 t) (iblk m c 1 t) (iblk m c 2 t) (iblk m c 3 t) (iblk m c 4 t) (accPrev m c t) :=
  dif_pos h1

/-! ## The region invariant and the proof data -/

/-- Before the first point the scratch holds anything; after position `n` it holds `accAt n`. -/
def PhiS (c : Dev nD) : (n : ℕ) → n ≤ cfg0.N → sProp 𝕄
  | 0, _ => Pipeline.scopedRest spec0 c
  | n + 1, hn => owns (c : Thread nD τ) accM fullShare (accAt m c n hn)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) accM fullShare (accAt m c n hn) := rfl

theorem PhiS_pos (c : Dev nD) (n : ℕ) (h : n ≤ cfg0.N) (hz : n ≠ 0) :
    PhiS m c n h = owns (c : Thread nD τ) accM fullShare (accAt m c (n - 1) (by omega)) := by
  cases n with
  | zero => exact absurd rfl hz
  | succ n => rfl

/-- The proof data: every array as the region finds it; each input's buffer left at its block, the output's at
    `outAt`; the invariant the scratch's contents; nothing owed. The node features are read through two windows
    (the contraction operand and the skip operand), each holding half of that array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

end Cert.Kernel.Hand

end
-- ==== Proof.KernelFrame.Body.lean ====
import proofs.«104423_j26173530702105_1_alg».proof.Proof.KernelFrame.Data

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, the core's (empty) debts, and each window's
    current staging buffer at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the step `t % 8` says which of the three runs
    applies; the invariant hands the run the scratch (at anything before the very first point, else at what the
    point before left) and takes it back at this point's contents, the run's slabs covering it; the output buffer
    comes back untouched before a last step and wholly written at one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 128 := lt_of_lt_of_eq t.isLt (show cfg0.N = 128 from N_0)
  by_cases h0 : t.val % 8 = 0
  · have h1 : ¬t.val % 8 = 7 := by omega
    rw [Dat.leavesExact_idle (dats m 0 c) 5 t (outIdle t (not_last_of t h1)) (outNoFlush t (not_last_of t h1))]
    rw [accAt_first m c t h0]
    unfold accFirst
    by_cases hz : t.val = 0
    · rw [PhiS_castSucc m c t, PhiS_zero m c _ _ hz, scopedRest_acc]
      iintro ⟨HS, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ (first_of t h0) (not_last_of t h1) (iblk m c 0 t) (iblk m c 1 t) (iblk m c 2 t) (iblk m c 3 t) (iblk m c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS]
      · unfold owns; iexists _; isplitr
        swap; · iexact HS
        ipureintro; exact View.read_writes_of_cover _ _ _ _ _ (first_cover c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ (first_of t h0) (not_last_of t h1) (iblk m c 0 t) (iblk m c 1 t) (iblk m c 2 t) (iblk m c 3 t) (iblk m c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS]
      · unfold owns; iexists _; isplitr
        swap; · iexact HS
        ipureintro; exact View.read_writes_of_cover _ _ _ _ _ (first_cover c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 8 = 7
    · rw [show (dats m 0 c).leavesExact 5 t = owns (c : Thread nD τ) (ms5 t) fullShare ((dats m 0 c).after 5 t) from by
        unfold Dat.leavesExact; rw [outLive t (last_of t h1)], after5, outAt_last m c t h1]
      rw [accAt_last m c t h0 h1]
      unfold accLast outLast
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (not_first_of t h0) (last_of t h1) (iblk m c 0 t) (iblk m c 1 t) (iblk m c 2 t) (iblk m c 3 t) (iblk m c 4 t) (accPrev m c t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS]
      · unfold owns; iexists _; isplitr
        swap; · iexact HS
        ipureintro; exact View.read_writes_of_cover _ _ _ _ _ (last_cover c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (out_cover c _ _ _ _ _ _ _ _ _ _ _ _ _ _ _ _ _ _ _ _ _ _ _)
    · rw [Dat.leavesExact_idle (dats m 0 c) 5 t (outIdle t (not_last_of t h1)) (outNoFlush t (not_last_of t h1))]
      rw [accAt_mid m c t h0 h1]
      unfold accMid
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ (not_first_of t h0) (not_last_of t h1) (iblk m c 0 t) (iblk m c 1 t) (iblk m c 2 t) (iblk m c 3 t) (iblk m c 4 t) (accPrev m c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS]
      · unfold owns; iexists _; isplitr
        swap; · iexact HS
        ipureintro; exact View.read_writes_of_cover _ _ _ _ _ (mid_cover c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelFrame.Launch.lean ====
import proofs.«104423_j26173530702105_1_alg».proof.Proof.KernelFrame.Body

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch

The node features reach the kernel through two windows, so the launch hands that one buffer to both, each at
half its share; every other array is held whole. -/

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The buffers behind the windows' arrays, whole at the entry contents, are the windows' arrays at their
    shares: the feature matrix split between its two windows. -/
theorem hsplit (c : Dev nD) :
    (Pipeline.arrBufs spec0 c (V m c) : sProp 𝕄) ⊢ (dats m 0 c).arrays ((dats m 0 c).arrAt · 0) := by
  unfold Pipeline.arrBufs Dat.arrays
  have hL : (bigSep (Finset.univ.image (Pipeline.arrRef spec0)) fun b => (((c.tc : Thread nD τ).loc b) ↦{fullShare} V m c b : sProp 𝕄))
      = iprop((((c.tc : Thread nD τ).loc main_arg1) ↦{fullShare} V m c main_arg1) ∗ (((c.tc : Thread nD τ).loc main_arg0) ↦{fullShare} V m c main_arg0)
          ∗ (((c.tc : Thread nD τ).loc main_v0) ↦{fullShare} V m c main_v0) ∗ (((c.tc : Thread nD τ).loc main_arg3) ↦{fullShare} V m c main_arg3)
          ∗ (((c.tc : Thread nD τ).loc main_v1) ↦{fullShare} V m c main_v1)) :=
    bigSep_eq_bigSepL_of_eq [main_arg1, main_arg0, main_v0, main_arg3, main_v1] (by decide) (by decide) _
  rw [hL, bigSep_W0]
  rw [(arr_whole0 0).set_eq_univ, (arr_whole0 1).set_eq_univ, (arr_whole0 3).set_eq_univ,
    (arr_whole0 4).set_eq_univ, (arr_whole0 5).set_eq_univ, share0, share1, share2, share3, share4, share5]
  iintro ⟨HA, HX, HW, HB, HO⟩
  ihave HX' := (pointsTo_share (PosShare.mem_left_op_right fullShare)).1 $$ HX
  icases HX' with ⟨HXl, HXr⟩
  isplitl [HA]; · iexact HA
  isplitl [HXl]; · iexact HXl
  isplitl [HXr]; · iexact HXr
  isplitl [HW]; · iexact HW
  isplitl [HB]; · iexact HB
  iexact HO

/-- Before the first point the invariant is the scratch at anything, as the launch hands it over. -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

/-- After the last point the scratch's contents are forgotten. -/
theorem hout (c : Dev nD) : (dats m 0 c).Φ (Fin.last cfg0.N) ⊢ iprop(emp ∗ Pipeline.scopedRest spec0 c) := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), scopedRest_acc]
  iintro H; isplitr; · iempintro
  iexists _; iexact H

/-- At the compiled mesh, for any float values, from any memory with zero counters: every weakly fair execution of
    @main terminates, every array a window stages ends at what the write-backs leave of it, and the weights, which
    only the host transpose reads, end as launched. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ r.2.mem ((c.tc : Thread nD τ).loc main_arg2) = m ((c.tc : Thread nD τ).loc main_arg2)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, ((h c).2 main_arg2 (Pipeline.mem_restRefs_of main_arg2 (by decide) (by decide))).trans (V_main_arg2 m c)⟩)

/-- info: 'Cert.Kernel.Hand.run_main' depends on axioms: [propext, Classical.choice, Quot.sound] -/
#guard_msgs in #print axioms run_main

/-- The frame: the program runs to the end and leaves its four argument arrays as launched. The features are read
    off either of their two windows, the adjacency powers and the biases off theirs, the weights off the host's
    untouched buffer. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (h c).2,
      ((h c).1 4).trans (((dats m 0 c).arrAt_in 4 rfl _).trans ((A_eq m c 4).trans (V_main_arg3 m c)))⟩) (run_main m ρ)

end Cert.Kernel.Hand

end
-- ==== Proof.KernelIdealFrame.Setup.lean ====
import proofs.«104423_j26173530702105_1_alg».proof.Proof.Gen.KernelIdeal.Launch
import proofs.«104423_j26173530702105_1_alg».proof.Proof.Gen.KernelIdeal.Skeleton
import proofs.«104423_j26173530702105_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region

The program transposes the weights on the host and then enters its one kernel region; the region finds
every argument array as launched and the transposed weights in `main_v0`. -/

/-- Core `c`'s buffers when the region is entered: after the host transpose. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main reduces to the region entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose before the region writes only its own result: the region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-- The transpose before the region writes only its own result: the region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))

/-- The transpose before the region writes only its own result: the region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-- The transpose before the region writes only its own result: the region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block of the array at every point, fetched
    there or not (an unfetched point has the block index of the point before). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block of the array at every point, fetched
    there or not (an unfetched point has the block index of the point before). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block of the array at every point, fetched
    there or not (an unfetched point has the block index of the point before). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the window's block of the array at every point, fetched
    there or not (an unfetched point has the block index of the point before). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the window's block of the array at every point, fetched
    there or not (an unfetched point has the block index of the point before). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two branches of the body, over the grid

The grid is 16 row tiles by 8 contraction steps, the contraction step the fast axis: point `t` is row tile
`t / 8` at step `t % 8`. The body zeroes its accumulators at step 0 and writes the output tile at step 7. -/

/-- The body's first branch is taken: the point is a row tile's first contraction step. -/
abbrev isFirstK (i : grid0.Coords) : Prop := (Scalar.cmpi .ne (Scalar.extui (Scalar.cmpi .eq (BitVec.ofNat 32 (i 1).val) 0#32)) 0#32) = 1#1
theorem isFirstK_iff : ∀ t : Fin cfg0.N, isFirstK (grid0.coords t) ↔ t.val % 8 = 0 :=
  (by decide +kernel : ∀ t : Fin grid0.N, isFirstK (grid0.coords t) ↔ t.val % 8 = 0)

/-- The body's second branch is taken: the point is a row tile's last contraction step. -/
abbrev isLastK (i : grid0.Coords) : Prop := k0_cond2 i = 1#1
theorem isLastK_iff : ∀ t : Fin cfg0.N, isLastK (grid0.coords t) ↔ t.val % 8 = 7 :=
  (by decide +kernel : ∀ t : Fin grid0.N, isLastK (grid0.coords t) ↔ t.val % 8 = 7)

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Before a row tile's last step the output window is idle and not written back; at the last step it is live. -/
theorem outIdle : ∀ t : Fin cfg0.N, ¬isLastK (grid0.coords t) → cfg0.idle 5 (grid0.coords t) = true := by decide +kernel
theorem outNoFlush : ∀ t : Fin cfg0.N, ¬isLastK (grid0.coords t) → (cfg0.win 5).flush t = false := by decide +kernel
theorem outLive : ∀ t : Fin cfg0.N, isLastK (grid0.coords t) → cfg0.idle 5 (grid0.coords t) = false := by decide +kernel

/-! ## The memrefs the body is called with -/

abbrev ms0 (t : Fin cfg0.N) : Memref sig .tc .vmem S3x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x256 .f32 := win0_5.stage (cfg0.slots t 5)
abbrev hs5 (t : Fin cfg0.N) : (ms5 t).IsWhole := hstage0_5 ((cfg0.slots t 5).cast nbuf0_5)
/-- The accumulator scratch: three 512×256 partial products carried from step to step. -/
abbrev accM : Memref sig .tc .vmem S3x512x256 .f32 := Memref.whole cc0_scratch0
abbrev accV : View sig .tc .vmem S3x512x256 .f32 := accM.view
/-- One staging buffer of the output window, through which its contents are stated. -/
abbrev outV : View sig .tc .vmem S512x256 .f32 := (Memref.whole cc0_stg5_0 : Memref sig .tc .vmem S512x256 .f32).view

/-- The one scoped buffer that is no staging buffer is the accumulator scratch. -/
theorem scopedRest_acc (c : Dev nD) :
    (Pipeline.scopedRest spec0 c : sProp 𝕄) = iprop(∃ d, owns (c : Thread nD τ) accM fullShare d) := by
  rw [scopedRest0_eq]; simp only [accM, owns_whole]; try rfl

end Cert.KernelIdeal.Hand

end
-- ==== Proof.KernelIdealFrame.RunFirst.lean ====
import proofs.«104423_j26173530702105_1_alg».proof.Proof.KernelIdealFrame.Setup

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a row tile's FIRST contraction step (the reset taken, the output branch not): on whole staging
    memrefs holding the input blocks, the output buffer at anything (handed back untouched) and the scratch at
    anything, it runs to the end leaving the inputs as they were and the scratch with the pieces `LS` written:
    the zero fill, then one 512×256 slab per adjacency power. -/
noncomputable def runFirst (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : isFirstK i) (hc1 : ¬isLastK i)
    (x0 : Vec F S3x512x1024 .f32) (x1 : Vec F S1024x256 .f32) (x2 : Vec F S512x256 .f32) (x3 : Vec F S3x256x256 .f32) (x4 : Vec F S3x256 .f32) :
    { LS : List (View.Piece (Elt F) S3x512x256 .f32) //
      ∀ (xo : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun xo E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Hand

end
-- ==== Proof.KernelIdealFrame.RunMid.lean ====
import proofs.«104423_j26173530702105_1_alg».proof.Proof.KernelIdealFrame.RunFirst

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a MIDDLE contraction step (neither branch taken): the scratch comes in at what the step before
    left (`xs`), each of its three slabs is read, increased by the step's partial product and stored back; the
    output buffer is handed back untouched. -/
noncomputable def runMid (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : ¬isLastK i)
    (x0 : Vec F S3x512x1024 .f32) (x1 : Vec F S1024x256 .f32) (x2 : Vec F S512x256 .f32) (x3 : Vec F S3x256x256 .f32) (x4 : Vec F S3x256 .f32) (xs : Vec F S3x512x256 .f32) :
    { LS : List (View.Piece (Elt F) S3x512x256 .f32) //
      ∀ (xo : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun xo E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Hand

end
-- ==== Proof.KernelIdealFrame.RunLast.lean ====
import proofs.«104423_j26173530702105_1_alg».proof.Proof.KernelIdealFrame.RunMid

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a row tile's LAST contraction step (the output branch taken, the reset not): the scratch comes in
    at what the step before left (`xs`) and is updated as at a middle step; then the three finished products are
    read back, combined with the skip block, the weights and the biases, and the result is stored over the whole
    output buffer (pieces `LO`). -/
noncomputable def runLast (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : isLastK i)
    (x0 : Vec F S3x512x1024 .f32) (x1 : Vec F S1024x256 .f32) (x2 : Vec F S512x256 .f32) (x3 : Vec F S3x256x256 .f32) (x4 : Vec F S3x256 .f32) (xs : Vec F S3x512x256 .f32) :
    Σ' (LO : List (View.Piece (Elt F) S512x256 .f32)), { LS : List (View.Piece (Elt F) S3x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Hand

end
-- ==== Proof.KernelIdealFrame.Data.lean ====
import proofs.«104423_j26173530702105_1_alg».proof.Proof.KernelIdealFrame.RunLast
import Idealize.ShloMosaic.Lib.Pipeline.Launch

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves in the accumulator scratch and in the output buffer

Each run ends with the scratch written by 512×256 slabs, one per adjacency power, that together tile it, and
(at a last step) the output buffer written whole; what a buffer then holds is its pieces read back. -/

theorem first_cover (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : isFirstK i) (hc1 : ¬isLastK i)
    (x0 : Vec F S3x512x1024 .f32) (x1 : Vec F S1024x256 .f32) (x2 : Vec F S512x256 .f32) (x3 : Vec F S3x256x256 .f32) (x4 : Vec F S3x256 .f32) (y : S3x512x256.Idx) :
    ∃ pc ∈ (runFirst c i arg2 harg2 arg3 harg3 arg4 harg4 arg5 harg5 arg6 harg6 arg7 harg7 arg8 harg8 hc0 hc1 x0 x1 x2 x3 x4).1, y ∈ pc.1.set :=
  View.cover_of_tiledL (runFirst c i arg2 harg2 arg3 harg3 arg4 harg4 arg5 harg5 arg6 harg6 arg7 harg7 arg8 harg8 hc0 hc1 x0 x1 x2 x3 x4).1 S1x512x256.size (by sl_kernel_rfl) y

/-- The scratch after a first step. -/
def accFirst (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : isFirstK i) (hc1 : ¬isLastK i)
    (x0 : Vec F S3x512x1024 .f32) (x1 : Vec F S1024x256 .f32) (x2 : Vec F S512x256 .f32) (x3 : Vec F S3x256x256 .f32) (x4 : Vec F S3x256 .f32) : Vec F S3x512x256 .f32 :=
  accV.read (Elt F) (accV.writes (Elt F) accV.junk (runFirst c i arg2 harg2 arg3 harg3 arg4 harg4 arg5 harg5 arg6 harg6 arg7 harg7 arg8 harg8 hc0 hc1 x0 x1 x2 x3 x4).1)

theorem mid_cover (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : ¬isLastK i)
    (x0 : Vec F S3x512x1024 .f32) (x1 : Vec F S1024x256 .f32) (x2 : Vec F S512x256 .f32) (x3 : Vec F S3x256x256 .f32) (x4 : Vec F S3x256 .f32) (xs : Vec F S3x512x256 .f32) (y : S3x512x256.Idx) :
    ∃ pc ∈ (runMid c i arg2 harg2 arg3 harg3 arg4 harg4 arg5 harg5 arg6 harg6 arg7 harg7 arg8 harg8 hc0 hc1 x0 x1 x2 x3 x4 xs).1, y ∈ pc.1.set :=
  View.cover_of_tiledL (runMid c i arg2 harg2 arg3 harg3 arg4 harg4 arg5 harg5 arg6 harg6 arg7 harg7 arg8 harg8 hc0 hc1 x0 x1 x2 x3 x4 xs).1 S1x512x256.size (by sl_kernel_rfl) y

/-- The scratch after a middle step, over what the step before left in it. -/
def accMid (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : ¬isLastK i)
    (x0 : Vec F S3x512x1024 .f32) (x1 : Vec F S1024x256 .f32) (x2 : Vec F S512x256 .f32) (x3 : Vec F S3x256x256 .f32) (x4 : Vec F S3x256 .f32) (xs : Vec F S3x512x256 .f32) : Vec F S3x512x256 .f32 :=
  accV.read (Elt F) (accV.writes (Elt F) accV.junk (runMid c i arg2 harg2 arg3 harg3 arg4 harg4 arg5 harg5 arg6 harg6 arg7 harg7 arg8 harg8 hc0 hc1 x0 x1 x2 x3 x4 xs).1)

theorem last_cover (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : isLastK i)
    (x0 : Vec F S3x512x1024 .f32) (x1 : Vec F S1024x256 .f32) (x2 : Vec F S512x256 .f32) (x3 : Vec F S3x256x256 .f32) (x4 : Vec F S3x256 .f32) (xs : Vec F S3x512x256 .f32) (y : S3x512x256.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1x512x256.size (by sl_kernel_rfl) y

/-- The scratch after a last step. -/
def accLast (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : isLastK i)
    (x0 : Vec F S3x512x1024 .f32) (x1 : Vec F S1024x256 .f32) (x2 : Vec F S512x256 .f32) (x3 : Vec F S3x256x256 .f32) (x4 : Vec F S3x256 .f32) (xs : Vec F S3x512x256 .f32) : Vec F S3x512x256 .f32 :=
  accV.read (Elt F) (accV.writes (Elt F) accV.junk (runLast c i arg2 harg2 arg3 harg3 arg4 harg4 arg5 harg5 arg6 harg6 arg7 harg7 arg8 harg8 hc0 hc1 x0 x1 x2 x3 x4 xs).2.1)

theorem out_cover (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : isLastK i)
    (x0 : Vec F S3x512x1024 .f32) (x1 : Vec F S1024x256 .f32) (x2 : Vec F S512x256 .f32) (x3 : Vec F S3x256x256 .f32) (x4 : Vec F S3x256 .f32) (xs : Vec F S3x512x256 .f32) (y : S512x256.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S512x256.size (by sl_kernel_rfl) y

/-- The output buffer after a last step. -/
def outLast (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : isLastK i)
    (x0 : Vec F S3x512x1024 .f32) (x1 : Vec F S1024x256 .f32) (x2 : Vec F S512x256 .f32) (x3 : Vec F S3x256x256 .f32) (x4 : Vec F S3x256 .f32) (xs : Vec F S3x512x256 .f32) : Vec F S512x256 .f32 :=
  outV.read (Elt F) (outV.writes (Elt F) outV.junk (runLast c i arg2 harg2 arg3 harg3 arg4 harg4 arg5 harg5 arg6 harg6 arg7 harg7 arg8 harg8 hc0 hc1 x0 x1 x2 x3 x4 xs).1)

/-! ## The branch hypotheses at a point, from its step `t % 8` -/

theorem first_of (t : Fin cfg0.N) (h : t.val % 8 = 0) : isFirstK (grid0.coords t) := (isFirstK_iff t).mpr h
theorem not_first_of (t : Fin cfg0.N) (h : ¬t.val % 8 = 0) : ¬isFirstK (grid0.coords t) := fun h' => h ((isFirstK_iff t).mp h')
theorem last_of (t : Fin cfg0.N) (h : t.val % 8 = 7) : isLastK (grid0.coords t) := (isLastK_iff t).mpr h
theorem not_last_of (t : Fin cfg0.N) (h : ¬t.val % 8 = 7) : ¬isLastK (grid0.coords t) := fun h' => h ((isLastK_iff t).mp h')

/-! ## The accumulator after each point -/

/-- What the scratch holds after the body at position `n`: a first step starts afresh from the point's blocks; a
    later step updates what position `n - 1` left. -/
def accAt (c : Dev nD) : (n : ℕ) → n < cfg0.N → Vec F S3x512x256 .f32
  | 0, hn =>
    accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) (first_of ⟨0, hn⟩ (Nat.zero_mod _)) (not_last_of ⟨0, hn⟩ (fun h => absurd (show (0 : ℕ) % 8 = 7 from h) (by decide))) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 8 = 0 then
      accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (first_of ⟨n + 1, hn⟩ h0) (not_last_of ⟨n + 1, hn⟩ (fun h => by have h' : (n + 1) % 8 = 7 := h; omega)) (iblk m c 0 ⟨n + 1, hn⟩) (iblk m c 1 ⟨n + 1, hn⟩) (iblk m c 2 ⟨n + 1, hn⟩) (iblk m c 3 ⟨n + 1, hn⟩) (iblk m c 4 ⟨n + 1, hn⟩)
    else if h1 : (n + 1) % 8 = 7 then
      accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (not_first_of ⟨n + 1, hn⟩ h0) (last_of ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))
    else
      accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (not_first_of ⟨n + 1, hn⟩ h0) (not_last_of ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))

/-- What position `t - 1` left (read only where `t` is no first step). -/
abbrev accPrev (c : Dev nD) (t : Fin cfg0.N) : Vec F S3x512x256 .f32 :=
  accAt m c (t.val - 1) (Nat.lt_of_le_of_lt (Nat.sub_le _ _) t.isLt)

theorem accAt_first (c : Dev nD) (t : Fin cfg0.N) (h0 : t.val % 8 = 0) :
    accAt m c t.val t.isLt = accFirst c (grid0.coords t) (ms0 t) (hs0 t) (ms1 t) (hs1 t) (ms2 t) (hs2 t) (ms3 t) (hs3 t) (ms4 t) (hs4 t) (ms5 t) (hs5 t) accM (Memref.isWhole_whole _) (first_of t h0) (not_last_of t (by omega)) (iblk m c 0 t) (iblk m c 1 t) (iblk m c 2 t) (iblk m c 3 t) (iblk m c 4 t) := by
  obtain ⟨n, hn⟩ := t
  cases n with
  | zero => rfl
  | succ n => exact (dif_pos h0).trans rfl

theorem accAt_mid (c : Dev nD) (t : Fin cfg0.N) (h0 : ¬t.val % 8 = 0) (h1 : ¬t.val % 8 = 7) :
    accAt m c t.val t.isLt = accMid c (grid0.coords t) (ms0 t) (hs0 t) (ms1 t) (hs1 t) (ms2 t) (hs2 t) (ms3 t) (hs3 t) (ms4 t) (hs4 t) (ms5 t) (hs5 t) accM (Memref.isWhole_whole _) (not_first_of t h0) (not_last_of t h1) (iblk m c 0 t) (iblk m c 1 t) (iblk m c 2 t) (iblk m c 3 t) (iblk m c 4 t) (accPrev m c t) := by
  obtain ⟨n, hn⟩ := t
  cases n with
  | zero => exact absurd (Nat.zero_mod _) h0
  | succ n => exact (dif_neg h0).trans ((dif_neg h1).trans rfl)

theorem accAt_last (c : Dev nD) (t : Fin cfg0.N) (h0 : ¬t.val % 8 = 0) (h1 : t.val % 8 = 7) :
    accAt m c t.val t.isLt = accLast c (grid0.coords t) (ms0 t) (hs0 t) (ms1 t) (hs1 t) (ms2 t) (hs2 t) (ms3 t) (hs3 t) (ms4 t) (hs4 t) (ms5 t) (hs5 t) accM (Memref.isWhole_whole _) (not_first_of t h0) (last_of t h1) (iblk m c 0 t) (iblk m c 1 t) (iblk m c 2 t) (iblk m c 3 t) (iblk m c 4 t) (accPrev m c t) := by
  obtain ⟨n, hn⟩ := t
  cases n with
  | zero => exact absurd (Nat.zero_mod _) h0
  | succ n => exact (dif_neg h0).trans ((dif_pos h1).trans rfl)

/-- What the output buffer holds after the body at point `t`: at a last step the finished tile; elsewhere the
    window is idle and nothing reads this. -/
def outAt (c : Dev nD) (t : Fin cfg0.N) : Vec F S512x256 .f32 :=
  if h1 : t.val % 8 = 7 then
    outLast c (grid0.coords t) (ms0 t) (hs0 t) (ms1 t) (hs1 t) (ms2 t) (hs2 t) (ms3 t) (hs3 t) (ms4 t) (hs4 t) (ms5 t) (hs5 t) accM (Memref.isWhole_whole _) (not_first_of t (by omega)) (last_of t h1) (iblk m c 0 t) (iblk m c 1 t) (iblk m c 2 t) (iblk m c 3 t) (iblk m c 4 t) (accPrev m c t)
  else outV.read (Elt F) outV.junk

theorem outAt_last (c : Dev nD) (t : Fin cfg0.N) (h1 : t.val % 8 = 7) :
    outAt m c t = outLast c (grid0.coords t) (ms0 t) (hs0 t) (ms1 t) (hs1 t) (ms2 t) (hs2 t) (ms3 t) (hs3 t) (ms4 t) (hs4 t) (ms5 t) (hs5 t) accM (Memref.isWhole_whole _) (not_first_of t (by omega)) (last_of t h1) (iblk m c 0 t) (iblk m c 1 t) (iblk m c 2 t) (iblk m c 3 t) (iblk m c 4 t) (accPrev m c t) :=
  dif_pos h1

/-! ## The region invariant and the proof data -/

/-- Before the first point the scratch holds anything; after position `n` it holds `accAt n`. -/
def PhiS (c : Dev nD) : (n : ℕ) → n ≤ cfg0.N → sProp 𝕄
  | 0, _ => Pipeline.scopedRest spec0 c
  | n + 1, hn => owns (c : Thread nD τ) accM fullShare (accAt m c n hn)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) accM fullShare (accAt m c n hn) := rfl

theorem PhiS_pos (c : Dev nD) (n : ℕ) (h : n ≤ cfg0.N) (hz : n ≠ 0) :
    PhiS m c n h = owns (c : Thread nD τ) accM fullShare (accAt m c (n - 1) (by omega)) := by
  cases n with
  | zero => exact absurd rfl hz
  | succ n => rfl

/-- The proof data: every array as the region finds it; each input's buffer left at its block, the output's at
    `outAt`; the invariant the scratch's contents; nothing owed. The node features are read through two windows
    (the contraction operand and the skip operand), each holding half of that array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

end Cert.KernelIdeal.Hand

end
-- ==== Proof.KernelIdealFrame.Body.lean ====
import proofs.«104423_j26173530702105_1_alg».proof.Proof.KernelIdealFrame.Data

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, the core's (empty) debts, and each window's
    current staging buffer at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the step `t % 8` says which of the three runs
    applies; the invariant hands the run the scratch (at anything before the very first point, else at what the
    point before left) and takes it back at this point's contents, the run's slabs covering it; the output buffer
    comes back untouched before a last step and wholly written at one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 128 := lt_of_lt_of_eq t.isLt (show cfg0.N = 128 from N_0)
  by_cases h0 : t.val % 8 = 0
  · have h1 : ¬t.val % 8 = 7 := by omega
    rw [Dat.leavesExact_idle (dats m 0 c) 5 t (outIdle t (not_last_of t h1)) (outNoFlush t (not_last_of t h1))]
    rw [accAt_first m c t h0]
    unfold accFirst
    by_cases hz : t.val = 0
    · rw [PhiS_castSucc m c t, PhiS_zero m c _ _ hz, scopedRest_acc]
      iintro ⟨HS, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ (first_of t h0) (not_last_of t h1) (iblk m c 0 t) (iblk m c 1 t) (iblk m c 2 t) (iblk m c 3 t) (iblk m c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS]
      · unfold owns; iexists _; isplitr
        swap; · iexact HS
        ipureintro; exact View.read_writes_of_cover _ _ _ _ _ (first_cover c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ (first_of t h0) (not_last_of t h1) (iblk m c 0 t) (iblk m c 1 t) (iblk m c 2 t) (iblk m c 3 t) (iblk m c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS]
      · unfold owns; iexists _; isplitr
        swap; · iexact HS
        ipureintro; exact View.read_writes_of_cover _ _ _ _ _ (first_cover c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 8 = 7
    · rw [show (dats m 0 c).leavesExact 5 t = owns (c : Thread nD τ) (ms5 t) fullShare ((dats m 0 c).after 5 t) from by
        unfold Dat.leavesExact; rw [outLive t (last_of t h1)], after5, outAt_last m c t h1]
      rw [accAt_last m c t h0 h1]
      unfold accLast outLast
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (not_first_of t h0) (last_of t h1) (iblk m c 0 t) (iblk m c 1 t) (iblk m c 2 t) (iblk m c 3 t) (iblk m c 4 t) (accPrev m c t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS]
      · unfold owns; iexists _; isplitr
        swap; · iexact HS
        ipureintro; exact View.read_writes_of_cover _ _ _ _ _ (last_cover c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (out_cover c _ _ _ _ _ _ _ _ _ _ _ _ _ _ _ _ _ _ _ _ _ _ _)
    · rw [Dat.leavesExact_idle (dats m 0 c) 5 t (outIdle t (not_last_of t h1)) (outNoFlush t (not_last_of t h1))]
      rw [accAt_mid m c t h0 h1]
      unfold accMid
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ (not_first_of t h0) (not_last_of t h1) (iblk m c 0 t) (iblk m c 1 t) (iblk m c 2 t) (iblk m c 3 t) (iblk m c 4 t) (accPrev m c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS]
      · unfold owns; iexists _; isplitr
        swap; · iexact HS
        ipureintro; exact View.read_writes_of_cover _ _ _ _ _ (mid_cover c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealFrame.Launch.lean ====
import proofs.«104423_j26173530702105_1_alg».proof.Proof.KernelIdealFrame.Body

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch

The node features reach the kernel through two windows, so the launch hands that one buffer to both, each at
half its share; every other array is held whole. -/

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The buffers behind the windows' arrays, whole at the entry contents, are the windows' arrays at their
    shares: the feature matrix split between its two windows. -/
theorem hsplit (c : Dev nD) :
    (Pipeline.arrBufs spec0 c (V m c) : sProp 𝕄) ⊢ (dats m 0 c).arrays ((dats m 0 c).arrAt · 0) := by
  unfold Pipeline.arrBufs Dat.arrays
  have hL : (bigSep (Finset.univ.image (Pipeline.arrRef spec0)) fun b => (((c.tc : Thread nD τ).loc b) ↦{fullShare} V m c b : sProp 𝕄))
      = iprop((((c.tc : Thread nD τ).loc main_arg1) ↦{fullShare} V m c main_arg1) ∗ (((c.tc : Thread nD τ).loc main_arg0) ↦{fullShare} V m c main_arg0)
          ∗ (((c.tc : Thread nD τ).loc main_v0) ↦{fullShare} V m c main_v0) ∗ (((c.tc : Thread nD τ).loc main_arg3) ↦{fullShare} V m c main_arg3)
          ∗ (((c.tc : Thread nD τ).loc main_v1) ↦{fullShare} V m c main_v1)) :=
    bigSep_eq_bigSepL_of_eq [main_arg1, main_arg0, main_v0, main_arg3, main_v1] (by decide) (by decide) _
  rw [hL, bigSep_W0]
  rw [(arr_whole0 0).set_eq_univ, (arr_whole0 1).set_eq_univ, (arr_whole0 3).set_eq_univ,
    (arr_whole0 4).set_eq_univ, (arr_whole0 5).set_eq_univ, share0, share1, share2, share3, share4, share5]
  iintro ⟨HA, HX, HW, HB, HO⟩
  ihave HX' := (pointsTo_share (PosShare.mem_left_op_right fullShare)).1 $$ HX
  icases HX' with ⟨HXl, HXr⟩
  isplitl [HA]; · iexact HA
  isplitl [HXl]; · iexact HXl
  isplitl [HXr]; · iexact HXr
  isplitl [HW]; · iexact HW
  isplitl [HB]; · iexact HB
  iexact HO

/-- Before the first point the invariant is the scratch at anything, as the launch hands it over. -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

/-- After the last point the scratch's contents are forgotten. -/
theorem hout (c : Dev nD) : (dats m 0 c).Φ (Fin.last cfg0.N) ⊢ iprop(emp ∗ Pipeline.scopedRest spec0 c) := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), scopedRest_acc]
  iintro H; isplitr; · iempintro
  iexists _; iexact H

/-- At the compiled mesh, for any float values, from any memory with zero counters: every weakly fair execution of
    @main terminates, every array a window stages ends at what the write-backs leave of it, and the weights, which
    only the host transpose reads, end as launched. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ r.2.mem ((c.tc : Thread nD τ).loc main_arg2) = m ((c.tc : Thread nD τ).loc main_arg2)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, ((h c).2 main_arg2 (Pipeline.mem_restRefs_of main_arg2 (by decide) (by decide))).trans (V_main_arg2 m c)⟩)

/-- info: 'Cert.KernelIdeal.Hand.run_main' depends on axioms: [propext, Classical.choice, Quot.sound] -/
#guard_msgs in #print axioms run_main

/-- The frame: the program runs to the end and leaves its four argument arrays as launched. The features are read
    off either of their two windows, the adjacency powers and the biases off theirs, the weights off the host's
    untouched buffer. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (h c).2,
      ((h c).1 4).trans (((dats m 0 c).arrAt_in 4 rfl _).trans ((A_eq m c 4).trans (V_main_arg3 m c)))⟩) (run_main m ρ)

end Cert.KernelIdeal.Hand

end
-- ==== Proof.Spec.lean ====
import Idealize.ShloMosaic.PureOps.Ideal
import Idealize.ShloMosaic.Lib.ValueIdx

/-!
The layer's result as ONE function of its four argument arrays, read at the extended reals.

`X` is the node-feature matrix [8192, 256], `A` the three adjacency powers [3, 8192, 8192], `W` the three
weight matrices [3, 256, 256] and `b` the three bias rows [3, 256].  With `M p = A p · X` the propagated
features, the order-1 term is `M 0 + M 1 + M 2`, the order-2 term the sum of the six products `M p * M q`
(p ≤ q), and the result at node `n`, output feature `j` is

  relu( X·W₀ᵀ + b₀ + (order 1)·W₁ᵀ + 3·b₁ + (order 2)·W₂ᵀ + 6·b₂ ) (n, j),

the sums associated to the left.
-/

noncomputable section

namespace Cert.Spec

open Idealize.ShloMosaic Idealize.ShloMosaic.ValueIdx

abbrev SX : Shape := ⟨2, ![8192, 256]⟩
abbrev SA : Shape := ⟨3, ![3, 8192, 8192]⟩
abbrev SW : Shape := ⟨3, ![3, 256, 256]⟩
abbrev SB : Shape := ⟨2, ![3, 256]⟩

/-- The propagated features: `(A p · X) (n, d) = ∑ k, A[p, n, k] * X[k, d]`. -/
def prop (X : SX.Idx → EReal) (A : SA.Idx → EReal) (p : Fin 3) (n : Fin 8192) (d : Fin 256) : EReal :=
  ∑ k : Fin 8192, A (ix3 p n k) * X (ix2 k d)

/-- The order-1 combination of three feature maps. -/
def ord1 (M : Fin 3 → Fin 8192 → Fin 256 → EReal) (n : Fin 8192) (d : Fin 256) : EReal :=
  M 0 n d + M 1 n d + M 2 n d

/-- The order-2 combination: the six pairwise products, in the order (0,0) (0,1) (0,2) (1,1) (1,2) (2,2). -/
def ord2 (M : Fin 3 → Fin 8192 → Fin 256 → EReal) (n : Fin 8192) (d : Fin 256) : EReal :=
  M 0 n d * M 0 n d + M 0 n d * M 1 n d + M 0 n d * M 2 n d + M 1 n d * M 1 n d + M 1 n d * M 2 n d + M 2 n d * M 2 n d

/-- A feature map through the `r`-th linear layer without its bias: `(S · W[r]ᵀ) (n, j) = ∑ k, S[n, k] * W[r, j, k]`. -/
def lin (S : Fin 8192 → Fin 256 → EReal) (W : SW.Idx → EReal) (r : Fin 3) (n : Fin 8192) (j : Fin 256) : EReal :=
  ∑ k : Fin 256, S n k * W (ix3 r j k)

/-- The float words 3.0, 6.0 and 0.0 as both programs carry them. -/
def three : EReal := Ideal.ofBits .f32 0x40400000#32
def six : EReal := Ideal.ofBits .f32 0x40C00000#32
def zero : EReal := Ideal.ofBits .f32 0x00000000#32

/-- The sum under the relu, at node `n` and output feature `j`. -/
def pre (X : SX.Idx → EReal) (A : SA.Idx → EReal) (W : SW.Idx → EReal) (b : SB.Idx → EReal) (n : Fin 8192) (j : Fin 256) : EReal :=
  lin (fun n k => X (ix2 n k)) W 0 n j + b (ix2 0 j) + lin (ord1 (prop X A)) W 1 n j + three * b (ix2 1 j)
    + lin (ord2 (prop X A)) W 2 n j + six * b (ix2 2 j)

/-- The layer's result. -/
def G (X : SX.Idx → EReal) (A : SA.Idx → EReal) (W : SW.Idx → EReal) (b : SB.Idx → EReal) : SX.Idx → EReal :=
  fun i => max (pre X A W b (i 0) (i 1)) zero

theorem G_apply (X : SX.Idx → EReal) (A : SA.Idx → EReal) (W : SW.Idx → EReal) (b : SB.Idx → EReal) (n : Fin 8192) (j : Fin 256) :
    G X A W b (ix2 n j) = max (pre X A W b n j) zero := rfl

end Cert.Spec

end
-- ==== Proof.KernelPayloads.lean ====
import proofs.«104423_j26173530702105_1_alg».proof.Proof.Gen.KernelIdeal.Skeleton
import proofs.«104423_j26173530702105_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
The kernel body's arithmetic, read at an index at the extended reals.

Each contraction step adds, slab by slab, the product of the step's 512×1024 block of an adjacency power with
the step's 1024×256 block of the features to what the slab held; the last step combines the three finished
slabs with the skip block, the transposed weights and the biases.
-/

noncomputable section

namespace Cert.KernelIdeal.Pay

open Idealize.ShloMosaic Idealize.ShloMosaic.ValueIdx
open Cert.KernelIdeal Cert.KernelIdeal.Gen

/-! ## The two contractions read at an index -/

/-- The 512×1024 by 1024×256 contraction keeps the row of its left operand. -/
private theorem lhsA_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
/-- Its left operand's column is the contracted coordinate. -/
private theorem lhsA_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
/-- Its right operand's row is the contracted coordinate. -/
private theorem rhsA_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
/-- It keeps the column of its right operand. -/
private theorem rhsA_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- The 512×1024 by 1024×256 product from a zero accumulator, at row `p` and column `h`. -/
private theorem mmA_apply {φ₁ φ₂ : FTy} (a : FVec Ideal S512x1024 φ₁) (b : FVec Ideal S1024x256 φ₂) (p : Fin 512) (h : Fin 256) :
    Idealize.ShloMosaic.matmul (F := Ideal) dot_S512x1024_S1024x256_S512x256_1_0_0_1_n_n none a b (constant (F := Ideal) S512x256 .f32 0x00000000#32) (ix2 p h)
      = ∑ k : Fin 1024, a (ix2 p k) * b (ix2 k h) := by
  refine (Ideal.matmul_constant_zero_apply dot_S512x1024_S1024x256_S512x256_1_0_0_1_n_n none a b (ix2 p h)).trans ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p h) ((contrEquiv1 dot_S512x1024_S1024x256_S512x256_1_0_0_1_n_n 1024 rfl rfl).symm k) = ix2 p k := funext fun c => Fin.ext (by
    match c with
    | ⟨0, _⟩ => exact lhsA_0 _ _
    | ⟨1, _⟩ => exact (lhsA_1 _ _).trans hk)
  have er : dot_S512x1024_S1024x256_S512x256_1_0_0_1_n_n.rhsIdx (ix2 p h) ((contrEquiv1 dot_S512x1024_S1024x256_S512x256_1_0_0_1_n_n 1024 rfl rfl).symm k) = ix2 k h := funext fun c => Fin.ext (by
    match c with
    | ⟨0, _⟩ => exact (rhsA_0 _ _).trans hk
    | ⟨1, _⟩ => exact rhsA_1 _ _)
  rw [el, er]

/-- The 512×256 by 256×256 contraction keeps the row of its left operand. -/
private theorem lhsB_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
/-- Its left operand's column is the contracted coordinate. -/
private theorem lhsB_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
/-- Its right operand's row is the contracted coordinate. -/
private theorem rhsB_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
/-- It keeps the column of its right operand. -/
private theorem rhsB_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The 512×256 by 256×256 product from a zero accumulator, at row `p` and column `h`. -/
private theorem mmB_apply {φ₁ φ₂ : FTy} (a : FVec Ideal S512x256 φ₁) (b : FVec Ideal S256x256 φ₂) (p : Fin 512) (h : Fin 256) :
    Idealize.ShloMosaic.matmul (F := Ideal) dot_S512x256_S256x256_S512x256_1_0_0_1_n_n none a b (constant (F := Ideal) S512x256 .f32 0x00000000#32) (ix2 p h)
      = ∑ k : Fin 256, a (ix2 p k) * b (ix2 k h) := by
  refine (Ideal.matmul_constant_zero_apply dot_S512x256_S256x256_S512x256_1_0_0_1_n_n none a b (ix2 p h)).trans ?_
  rw [← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p h) ((contrEquiv1 dot_S512x256_S256x256_S512x256_1_0_0_1_n_n 256 rfl rfl).symm k) = ix2 p k := funext fun c => Fin.ext (by
    match c with
    | ⟨0, _⟩ => exact lhsB_0 _ _
    | ⟨1, _⟩ => exact (lhsB_1 _ _).trans hk)
  have er : dot_S512x256_S256x256_S512x256_1_0_0_1_n_n.rhsIdx (ix2 p h) ((contrEquiv1 dot_S512x256_S256x256_S512x256_1_0_0_1_n_n 256 rfl rfl).symm k) = ix2 k h := funext fun c => Fin.ext (by
    match c with
    | ⟨0, _⟩ => exact (rhsB_0 _ _).trans hk
    | ⟨1, _⟩ => exact rhsB_1 _ _)
  rw [el, er]

/-! ## The slabs -/

/-- The reset fills the scratch with the zero word. -/
theorem reset_apply (y : S3x512x256.Idx) : k0_pay10 (F := Ideal) y = Cert.Spec.zero := by
  unfold k0_pay10
  exact congrFun (shapeCast_self _ _) y

/-- One slab's update at row `r` and column `d`: the unit axis cast away and put back reads the same element, the
    narrowing of the operands is the identity, and the product starts from zero. -/
private theorem slab_step (x : Vec Ideal S1024x256 .f32) (a : Vec Ideal S1x512x1024 .f32) (s : Vec Ideal S1x512x256 .f32)
    (h1 : S1x512x256.ShapeCasts S512x256) (h2 : S1x512x1024.ShapeCasts S512x1024) (h3 : S512x256.ShapeCasts S1x512x256)
    (hb : FTy.bits .bf16 < FTy.bits .f32) (r : Fin 512) (d : Fin 256) :
    shapeCast S1x512x256 (addf (F := Ideal) (shapeCast S512x256 s h1 : FVec Ideal S512x256 .f32)
        (Idealize.ShloMosaic.matmul (F := Ideal) dot_S512x1024_S1024x256_S512x256_1_0_0_1_n_n none
          (truncf .bf16 (shapeCast S512x1024 a h2 : FVec Ideal S512x1024 .f32) hb) (truncf .bf16 (x : FVec Ideal S1024x256 .f32) hb)
          (constant (F := Ideal) S512x256 .f32 0x00000000#32))) h3 (ix3 0 r d)
      = s (ix3 0 r d) + ∑ j : Fin 1024, a (ix3 0 r j) * x (ix2 j d) := by
  refine (shapeCast_ab_1ab_apply _ h3 0 r d).trans ?_
  refine (addf_apply _ _ _).trans ?_
  refine congrArg₂ (· + ·) (shapeCast_1ab_ab_apply s h1 r d) ?_
  refine (mmA_apply _ _ r d).trans ?_
  refine Finset.sum_congr rfl fun j _ => ?_
  exact congrArg (· * x (ix2 j d)) (shapeCast_1ab_ab_apply a h2 r j)

/-- Slab 0 after a step: what it held plus the step's partial product. -/
theorem slab0_apply (v3 : Vec Ideal S1024x256 .f32) (v5 : Vec Ideal S1x512x1024 .f32) (v8 : Vec Ideal S1x512x256 .f32)
    (r : Fin 512) (d : Fin 256) :
    k0_pay12 (F := Ideal) v3 v5 v8 (ix3 0 r d) = v8 (ix3 0 r d) + ∑ j : Fin 1024, v5 (ix3 0 r j) * v3 (ix2 j d) := by
  unfold k0_pay12 k0_pay11
  exact slab_step v3 v5 v8 _ _ _ _ r d

/-- Slab 1 after a step. -/
theorem slab1_apply (v3 : Vec Ideal S1024x256 .f32) (v15 : Vec Ideal S1x512x1024 .f32) (v18 : Vec Ideal S1x512x256 .f32)
    (r : Fin 512) (d : Fin 256) :
    k0_pay13 (F := Ideal) v3 v15 v18 (ix3 0 r d) = v18 (ix3 0 r d) + ∑ j : Fin 1024, v15 (ix3 0 r j) * v3 (ix2 j d) := by
  unfold k0_pay13 k0_pay11
  exact slab_step v3 v15 v18 _ _ _ _ r d

/-- Slab 2 after a step. -/
theorem slab2_apply (v3 : Vec Ideal S1024x256 .f32) (v25 : Vec Ideal S1x512x1024 .f32) (v28 : Vec Ideal S1x512x256 .f32)
    (r : Fin 512) (d : Fin 256) :
    k0_pay1 (F := Ideal) (k0_pay11 v3) (k0_pay14 v25) v28 (ix3 0 r d) = v28 (ix3 0 r d) + ∑ j : Fin 1024, v25 (ix3 0 r j) * v3 (ix2 j d) := by
  unfold k0_pay1 k0_pay11 k0_pay14
  exact slab_step v3 v25 v28 _ _ _ _ r d

/-! ## The last step's pieces -/

/-- Slab 0 without its unit axis. -/
private theorem pay3_apply (m : Vec Ideal S1x512x256 .f32) (r : Fin 512) (k : Fin 256) :
    k0_pay3 (F := Ideal) m (ix2 r k) = m (ix3 0 r k) := by
  unfold k0_pay3
  exact shapeCast_1ab_ab_apply m _ r k

/-- Slab 1 without its unit axis. -/
private theorem pay4_apply (m : Vec Ideal S1x512x256 .f32) (r : Fin 512) (k : Fin 256) :
    k0_pay4 (F := Ideal) m (ix2 r k) = m (ix3 0 r k) := by
  unfold k0_pay4
  exact shapeCast_1ab_ab_apply m _ r k

/-- Slab 2 without its unit axis. -/
private theorem pay5_apply (m : Vec Ideal S1x512x256 .f32) (r : Fin 512) (k : Fin 256) :
    k0_pay5 (F := Ideal) m (ix2 r k) = m (ix3 0 r k) := by
  unfold k0_pay5
  exact shapeCast_1ab_ab_apply m _ r k

/-- The third transposed weight slab without its unit axis; the narrowing is the identity. -/
private theorem pay6_apply (w : Vec Ideal S1x256x256 .f32) (k j : Fin 256) :
    k0_pay6 (F := Ideal) w (ix2 k j) = w (ix3 0 k j) := by
  unfold k0_pay6
  exact shapeCast_1ab_ab_apply w _ k j

/-- A bias row flattened, put back and spread over the 512 rows reads the row's entry in every row. -/
private theorem bias_apply (b : Vec Ideal S1x256 .f32) (h1 : S1x256.ShapeCasts S256) (h2 : S256.ShapeCasts S1x256)
    (hb : S1x256.Broadcasts S512x256) (r : Fin 512) (j : Fin 256) :
    broadcastTo S512x256 (shapeCast S1x256 (shapeCast S256 b h1) h2) hb (ix2 r j) = b (ix2 0 j) := by
  refine (broadcastTo_1b_ab_apply _ hb r j).trans ?_
  refine (shapeCast_a_1a_apply _ h2 0 j).trans ?_
  exact shapeCast_1a_a_apply b h1 j

/-- A bias row flattened, scaled by a constant, put back and spread over the 512 rows. -/
private theorem scaled_bias_apply (c : Ideal .f32) (b : Vec Ideal S1x256 .f32) (h1 : S1x256.ShapeCasts S256)
    (h2 : S256.ShapeCasts S1x256) (hb : S1x256.Broadcasts S512x256) (r : Fin 512) (j : Fin 256) :
    broadcastTo S512x256 (shapeCast S1x256 (mulf (F := Ideal) (broadcast S256 c) (shapeCast S256 b h1 : FVec Ideal S256 .f32)) h2) hb (ix2 r j)
      = c * b (ix2 0 j) := by
  refine (broadcastTo_1b_ab_apply _ hb r j).trans ?_
  refine (shapeCast_a_1a_apply _ h2 0 j).trans ?_
  refine (mulf_apply _ _ _).trans ?_
  exact congrArg (c * ·) (shapeCast_1a_a_apply b h1 j)

/-- The skip term: the skip block times the first transposed weight slab, plus the first bias row. -/
private theorem pay7_apply (xs : Vec Ideal S512x256 .f32) (w0 : Vec Ideal S1x256x256 .f32) (b0 : Vec Ideal S1x256 .f32)
    (r : Fin 512) (j : Fin 256) :
    k0_pay7 (F := Ideal) xs w0 b0 (ix2 r j) = (∑ k : Fin 256, xs (ix2 r k) * w0 (ix3 0 k j)) + b0 (ix2 0 j) := by
  unfold k0_pay7
  refine (addf_apply _ _ _).trans ?_
  refine congrArg₂ (· + ·) ?_ (bias_apply b0 _ _ _ r j)
  refine (mmB_apply _ _ r j).trans ?_
  refine Finset.sum_congr rfl fun k _ => ?_
  exact congrArg (xs (ix2 r k) * ·) (shapeCast_1ab_ab_apply w0 _ k j)

/-- The first-order term without its bias: the sum of the three slabs times the second transposed weight slab. -/
private theorem pay8_apply (m0 m1 m2 : Vec Ideal S1x512x256 .f32) (w1 : Vec Ideal S1x256x256 .f32) (r : Fin 512) (j : Fin 256) :
    k0_pay8 (F := Ideal) m0 m1 m2 w1 (ix2 r j)
      = ∑ k : Fin 256, (m0 (ix3 0 r k) + m1 (ix3 0 r k) + m2 (ix3 0 r k)) * w1 (ix3 0 k j) := by
  unfold k0_pay8
  refine (mmB_apply _ _ r j).trans ?_
  refine Finset.sum_congr rfl fun k _ => ?_
  refine congrArg₂ (· * ·) ?_ (shapeCast_1ab_ab_apply w1 _ k j)
  exact congrArg₂ (· + ·) (congrArg₂ (· + ·) (pay3_apply m0 r k) (pay4_apply m1 r k)) (pay5_apply m2 r k)

/-- Three times the second bias row, in every row. -/
private theorem pay9_apply (b1 : Vec Ideal S1x256 .f32) (r : Fin 512) (j : Fin 256) :
    k0_pay9 (F := Ideal) b1 (ix2 r j) = Cert.Spec.three * b1 (ix2 0 j) := by
  unfold k0_pay9 Cert.Spec.three
  exact scaled_bias_apply _ b1 _ _ _ r j

/-! ## The output tile -/

/-- The output tile at a last step, from the three finished slabs `m0 m1 m2`, the skip block `xs`, the three
    transposed weight slabs `w0 w1 w2` and the three bias rows `b0 b1 b2`. -/
theorem tile_apply (m0 m1 m2 : Vec Ideal S1x512x256 .f32) (xs : Vec Ideal S512x256 .f32)
    (w0 w1 w2 : Vec Ideal S1x256x256 .f32) (b0 b1 b2 : Vec Ideal S1x256 .f32) (r : Fin 512) (j : Fin 256) :
    k0_pay2 (F := Ideal) (k0_pay3 m0) (k0_pay4 m1) (k0_pay5 m2) (k0_pay6 w2) (k0_pay7 xs w0 b0) (k0_pay8 m0 m1 m2 w1) (k0_pay9 b1) b2 (ix2 r j)
      = max ((((∑ k : Fin 256, xs (ix2 r k) * w0 (ix3 0 k j)) + b0 (ix2 0 j))
              + ((∑ k : Fin 256, (m0 (ix3 0 r k) + m1 (ix3 0 r k) + m2 (ix3 0 r k)) * w1 (ix3 0 k j)) + Cert.Spec.three * b1 (ix2 0 j)))
            + ((∑ k : Fin 256, (m0 (ix3 0 r k) * m0 (ix3 0 r k) + m0 (ix3 0 r k) * m1 (ix3 0 r k) + m0 (ix3 0 r k) * m2 (ix3 0 r k)
                  + m1 (ix3 0 r k) * m1 (ix3 0 r k) + m1 (ix3 0 r k) * m2 (ix3 0 r k) + m2 (ix3 0 r k) * m2 (ix3 0 r k)) * w2 (ix3 0 k j))
                + Cert.Spec.six * b2 (ix2 0 j))) Cert.Spec.zero := by
  unfold k0_pay2 Cert.Spec.six Cert.Spec.zero
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) (pay7_apply xs w0 b0 r j) ?_
    refine (addf_apply _ _ _).trans ?_
    exact congrArg₂ (· + ·) (pay8_apply m0 m1 m2 w1 r j) (pay9_apply b1 r j)
  · refine (addf_apply _ _ _).trans ?_
    refine congrArg₂ (· + ·) ?_ (scaled_bias_apply _ b2 _ _ _ r j)
    refine (mmB_apply _ _ r j).trans ?_
    refine Finset.sum_congr rfl fun k _ => ?_
    refine congrArg₂ (· * ·) ?_ (pay6_apply w2 k j)
    have e0 := pay3_apply m0 r k
    have e1 := pay4_apply m1 r k
    have e2 := pay5_apply m2 r k
    exact congrArg₂ (· + ·) (congrArg₂ (· + ·) (congrArg₂ (· + ·) (congrArg₂ (· + ·) (congrArg₂ (· + ·)
      (congrArg₂ (· * ·) e0 e0) (congrArg₂ (· * ·) e0 e1)) (congrArg₂ (· * ·) e0 e2)) (congrArg₂ (· * ·) e1 e1))
      (congrArg₂ (· * ·) e1 e2)) (congrArg₂ (· * ·) e2 e2)

end Cert.KernelIdeal.Pay

end
-- ==== Proof.KernelValue.Steps.lean ====
import proofs.«104423_j26173530702105_1_alg».proof.Proof.KernelIdealFrame.Data
import proofs.«104423_j26173530702105_1_alg».proof.Proof.KernelPayloads
import Idealize.ShloMosaic.Lib.Pipeline.Value

/-!
What each kind of step leaves in the accumulator and in the output buffer, read at an index at the extended
reals, as a function of the step's input blocks and of what the accumulator held before.
-/

set_option maxRecDepth 16384

noncomputable section

namespace Cert.KernelIdeal.Hand

open Cert.KernelIdeal.Gen
open Idealize.ShloMosaic Idealize.ShloMosaic.TcCoe Idealize.ShloMosaic.ValueIdx
open Idealize.SL Idealize.SL.Sem
open Idealize.ShloMosaic.Tactic

/-- Slab `p` of the accumulator after a step, at row `r` and feature `k`: what it held plus the product of the
    step's block of adjacency power `p` with the step's block of the features. -/
def slabAfter (x0 : Vec Ideal S3x512x1024 .f32) (x1 : Vec Ideal S1024x256 .f32) (xs : Vec Ideal S3x512x256 .f32)
    (p : Fin 3) (r : Fin 512) (k : Fin 256) : EReal :=
  xs (ix3 p r k) + ∑ j : Fin 1024, x0 (ix3 p r j) * x1 (ix2 j k)

/-! ## Blocks of a whole buffer -/

/-- The rank-3 offsets `(0, 0, 0)` are the zero offsets. -/
private theorem hz3 : (![0, 0, 0] : Fin 3 → ℕ) = fun _ => 0 := by
  funext a; match a with | ⟨0, _⟩ => rfl | ⟨1, _⟩ => rfl | ⟨2, _⟩ => rfl

/-- The rank-2 offsets `(0, 0)` are the zero offsets. -/
private theorem hz2 : (![0, 0] : Fin 2 → ℕ) = fun _ => 0 := by
  funext a; match a with | ⟨0, _⟩ => rfl | ⟨1, _⟩ => rfl

/-- Slab `q` of a rank-3 array: the slab's index `(0, r, k)` sits at `(q, r, k)`. -/
private theorem slab_idx {n a b : ℕ} (q : ℕ)
    (inb : ∀ c, (![q, 0, 0] : Fin 3 → ℕ) c + (![1, a, b] : Fin 3 → ℕ) c ≤ (⟨3, ![n, a, b]⟩ : Shape).size c)
    (p : Fin n) (hp : p.val = q) (r : Fin a) (k : Fin b) :
    (Rect.unit (s := ⟨3, ![n, a, b]⟩) ![q, 0, 0] ![1, a, b] inb).toLoadRect.idx (ix3 0 r k) = ix3 p r k := by
  funext c
  apply Fin.ext
  match c with
  | ⟨0, _⟩ =>
    show q + 1 * 0 = p.val
    omega
  | ⟨1, _⟩ =>
    show 0 + 1 * r.val = r.val
    omega
  | ⟨2, _⟩ =>
    show 0 + 1 * k.val = k.val
    omega

/-- Row `q` of a rank-2 array: the row's index `(0, j)` sits at `(q, j)`. -/
private theorem row_idx {n b : ℕ} (q : ℕ)
    (inb : ∀ c, (![q, 0] : Fin 2 → ℕ) c + (![1, b] : Fin 2 → ℕ) c ≤ (⟨2, ![n, b]⟩ : Shape).size c)
    (p : Fin n) (hp : p.val = q) (j : Fin b) :
    (Rect.unit (s := ⟨2, ![n, b]⟩) ![q, 0] ![1, b] inb).toLoadRect.idx (ix2 0 j) = ix2 p j := by
  funext c
  apply Fin.ext
  match c with
  | ⟨0, _⟩ =>
    show q + 1 * 0 = p.val
    omega
  | ⟨1, _⟩ =>
    show 0 + 1 * j.val = j.val
    omega

/-- A whole buffer holding `X`, loaded whole, reads `X`. -/
private theorem readAt_whole {σ : RefSig} {κ : Kind} {sp : Space} {S : Shape} {e : EltTy} (M : Memref σ κ sp S e) (h : M.IsWhole)
    (X : S.Idx → Elt Ideal e) {off : Fin S.rank → ℕ} (hz : off = fun _ => 0) (inb : ∀ a, off a + S.size a ≤ S.size a) :
    M.view.readAt (Elt Ideal) (Rect.unit off S.size inb).toLoadRect (h.unread X) = X := by
  rw [View.readAt_eq_ld, h.read_unread]
  exact View.ld_unit_zero hz inb X

/-- A whole rank-3 buffer holding `X`, loaded at slab `q`, reads `X`'s slab `q`. -/
private theorem readAt_slab {σ : RefSig} {κ : Kind} {sp : Space} {n a b : ℕ} {e : EltTy} (M : Memref σ κ sp ⟨3, ![n, a, b]⟩ e) (h : M.IsWhole)
    (X : (⟨3, ![n, a, b]⟩ : Shape).Idx → Elt Ideal e) (q : ℕ)
    (inb : ∀ c, (![q, 0, 0] : Fin 3 → ℕ) c + (![1, a, b] : Fin 3 → ℕ) c ≤ (⟨3, ![n, a, b]⟩ : Shape).size c)
    (p : Fin n) (hp : p.val = q) (r : Fin a) (k : Fin b) :
    M.view.readAt (Elt Ideal) (Rect.unit (s := ⟨3, ![n, a, b]⟩) ![q, 0, 0] ![1, a, b] inb).toLoadRect (h.unread X) (ix3 0 r k) = X (ix3 p r k) := by
  rw [View.readAt_eq_ld, h.read_unread]
  exact congrArg X (slab_idx q inb p hp r k)

/-- A whole rank-2 buffer holding `X`, loaded at row `q`, reads `X`'s row `q`. -/
private theorem readAt_row {σ : RefSig} {κ : Kind} {sp : Space} {n b : ℕ} {e : EltTy} (M : Memref σ κ sp ⟨2, ![n, b]⟩ e) (h : M.IsWhole)
    (X : (⟨2, ![n, b]⟩ : Shape).Idx → Elt Ideal e) (q : ℕ)
    (inb : ∀ c, (![q, 0] : Fin 2 → ℕ) c + (![1, b] : Fin 2 → ℕ) c ≤ (⟨2, ![n, b]⟩ : Shape).size c)
    (p : Fin n) (hp : p.val = q) (j : Fin b) :
    M.view.readAt (Elt Ideal) (Rect.unit (s := ⟨2, ![n, b]⟩) ![q, 0] ![1, b] inb).toLoadRect (h.unread X) (ix2 0 j) = X (ix2 p j) := by
  rw [View.readAt_eq_ld, h.read_unread]
  exact congrArg X (row_idx q inb p hp j)

/-! ## The slabs of the scratch -/

/-- An index of slab `p` is not in slab `q`'s rectangle when `p ≠ q`. -/
private theorem not_mem_slab (q : ℕ)
    (inb : ∀ c, (![q, 0, 0] : Fin 3 → ℕ) c + (![1, 512, 256] : Fin 3 → ℕ) c ≤ S3x512x256.size c)
    (p : Fin 3) (hp : p.val ≠ q) (r : Fin 512) (k : Fin 256) :
    ix3 p r k ∉ (Rect.unit (s := S3x512x256) ![q, 0, 0] ![1, 512, 256] inb).set := by
  intro h
  have h0 : q ≤ p.val ∧ p.val < q + 1 := (Rect.mem_set_unit.mp h) 0
  omega

/-- Under a last store on slab `q`, slab `q` of the contents is that store's payload. -/
private theorem canon_slab (q : ℕ)
    (inb : ∀ c, (![q, 0, 0] : Fin 3 → ℕ) c + (![1, 512, 256] : Fin 3 → ℕ) c ≤ S3x512x256.size c)
    (w : S1x512x256.Idx → Elt Ideal .f32) (L : List (View.Piece (Elt Ideal) S3x512x256 .f32))
    (p : Fin 3) (hp : p.val = q) (r : Fin 512) (k : Fin 256) :
    View.canon (⟨Rect.unit (s := S3x512x256) ![q, 0, 0] ![1, 512, 256] inb, w⟩ :: L) (ix3 p r k) = w (ix3 0 r k) := by
  have e := View.canon_cons_emb (Rect.unit (s := S3x512x256) ![q, 0, 0] ![1, 512, 256] inb) w L (ix3 0 r k)
  have hi : (Rect.unit (s := S3x512x256) ![q, 0, 0] ![1, 512, 256] inb).emb (ix3 0 r k) = ix3 p r k :=
    slab_idx q inb p hp r k
  rw [hi] at e
  exact e

/-- Off slab `q`, a store on slab `q` leaves what the earlier stores left. -/
private theorem canon_off_slab (q : ℕ)
    (inb : ∀ c, (![q, 0, 0] : Fin 3 → ℕ) c + (![1, 512, 256] : Fin 3 → ℕ) c ≤ S3x512x256.size c)
    (w : S1x512x256.Idx → Elt Ideal .f32) (L : List (View.Piece (Elt Ideal) S3x512x256 .f32))
    (p : Fin 3) (hp : p.val ≠ q) (r : Fin 512) (k : Fin 256) :
    View.canon (⟨Rect.unit (s := S3x512x256) ![q, 0, 0] ![1, 512, 256] inb, w⟩ :: L) (ix3 p r k) = View.canon L (ix3 p r k) :=
  View.canon_cons_of_not_mem _ L (not_mem_slab q inb p hp r k)

/-- A load of slab `q` after the stores `L` reads, at `(0, r, k)`, what they left at `(q, r, k)`. -/
private theorem readCov_slab {σ : RefSig} {κ : Kind} {sp : Space} (v : View σ κ sp S3x512x256 .f32)
    (L : List (View.Piece (Elt Ideal) S3x512x256 .f32)) (q : ℕ)
    (inb : ∀ c, (![q, 0, 0] : Fin 3 → ℕ) c + (![1, 512, 256] : Fin 3 → ℕ) c ≤ S3x512x256.size c)
    (p : Fin 3) (hp : p.val = q) (r : Fin 512) (k : Fin 256) :
    v.readCov L (Rect.unit (s := S3x512x256) ![q, 0, 0] ![1, 512, 256] inb).toLoadRect (ix3 0 r k) = View.canon L (ix3 p r k) := by
  rw [View.readCov_eq_canon']
  exact congrArg (View.canon L) (slab_idx q inb p hp r k)

/-! ## A step that updates what the scratch held -/

/-- Slab `q`'s update read from the step's blocks: the old slab, the adjacency block's slab and the features block. -/
private theorem slab_reads (arg2 : Memref sig .tc .vmem S3x512x1024 .f32) (harg2 : arg2.IsWhole) (arg3 : Memref sig .tc .vmem S1024x256 .f32) (harg3 : arg3.IsWhole)
    (arg8 : Memref sig .tc .vmem S3x512x256 .f32) (harg8 : arg8.IsWhole)
    (x0 : Vec Ideal S3x512x1024 .f32) (x1 : Vec Ideal S1024x256 .f32) (xs : Vec Ideal S3x512x256 .f32) (q : ℕ)
    (i2 : ∀ c, (![q, 0, 0] : Fin 3 → ℕ) c + (![1, 512, 1024] : Fin 3 → ℕ) c ≤ S3x512x1024.size c)
    (i3 : ∀ c, (![0, 0] : Fin 2 → ℕ) c + S1024x256.size c ≤ S1024x256.size c)
    (i8 : ∀ c, (![q, 0, 0] : Fin 3 → ℕ) c + (![1, 512, 256] : Fin 3 → ℕ) c ≤ S3x512x256.size c)
    (p : Fin 3) (hp : p.val = q) (r : Fin 512) (k : Fin 256) :
    arg8.view.readAt (Elt Ideal) (Rect.unit (s := S3x512x256) ![q, 0, 0] ![1, 512, 256] i8).toLoadRect (harg8.unread xs) (ix3 0 r k)
      + ∑ j : Fin 1024, arg2.view.readAt (Elt Ideal) (Rect.unit (s := S3x512x1024) ![q, 0, 0] ![1, 512, 1024] i2).toLoadRect (harg2.unread x0) (ix3 0 r j)
          * arg3.view.readAt (Elt Ideal) (Rect.unit (s := S1024x256) ![0, 0] S1024x256.size i3).toLoadRect (harg3.unread x1) (ix2 j k)
      = slabAfter x0 x1 xs p r k := by
  unfold slabAfter
  refine congrArg₂ (· + ·) (readAt_slab arg8 harg8 xs q i8 p hp r k) (Finset.sum_congr rfl fun j _ => ?_)
  exact congrArg₂ (· * ·) (readAt_slab arg2 harg2 x0 q i2 p hp r j) (congrFun (readAt_whole arg3 harg3 x1 hz2 i3) (ix2 j k))

/-- The three slab stores of such a step leave, on slab `p`, what the slab held plus the step's partial product. -/
private theorem mid_canon (arg2 : Memref sig .tc .vmem S3x512x1024 .f32) (harg2 : arg2.IsWhole) (arg3 : Memref sig .tc .vmem S1024x256 .f32) (harg3 : arg3.IsWhole)
    (arg8 : Memref sig .tc .vmem S3x512x256 .f32) (harg8 : arg8.IsWhole)
    (x0 : Vec Ideal S3x512x1024 .f32) (x1 : Vec Ideal S1024x256 .f32) (xs : Vec Ideal S3x512x256 .f32)
    (p : Fin 3) (r : Fin 512) (k : Fin 256) :
    View.canon
      ([⟨Rect.unit (s := S3x512x256) ![2, 0, 0] ![1, 512, 256] inb_S3x512x256_S1x512x256_2_0_0,
          k0_pay1 (F := Ideal)
            (k0_pay11 (arg3.view.readAt (Elt Ideal) (Rect.unit (s := S1024x256) ![0, 0] S1024x256.size inb_S1024x256_S1024x256_0_0).toLoadRect (harg3.unread x1)))
            (k0_pay14 (arg2.view.readAt (Elt Ideal) (Rect.unit (s := S3x512x1024) ![2, 0, 0] ![1, 512, 1024] inb_S3x512x1024_S1x512x1024_2_0_0).toLoadRect (harg2.unread x0)))
            (arg8.view.readAt (Elt Ideal) (Rect.unit (s := S3x512x256) ![2, 0, 0] ![1, 512, 256] inb_S3x512x256_S1x512x256_2_0_0).toLoadRect (harg8.unread xs))⟩,
        ⟨Rect.unit (s := S3x512x256) ![1, 0, 0] ![1, 512, 256] inb_S3x512x256_S1x512x256_1_0_0,
          k0_pay13 (F := Ideal)
            (arg3.view.readAt (Elt Ideal) (Rect.unit (s := S1024x256) ![0, 0] S1024x256.size inb_S1024x256_S1024x256_0_0).toLoadRect (harg3.unread x1))
            (arg2.view.readAt (Elt Ideal) (Rect.unit (s := S3x512x1024) ![1, 0, 0] ![1, 512, 1024] inb_S3x512x1024_S1x512x1024_1_0_0).toLoadRect (harg2.unread x0))
            (arg8.view.readAt (Elt Ideal) (Rect.unit (s := S3x512x256) ![1, 0, 0] ![1, 512, 256] inb_S3x512x256_S1x512x256_1_0_0).toLoadRect (harg8.unread xs))⟩,
        ⟨Rect.unit (s := S3x512x256) ![0, 0, 0] ![1, 512, 256] inb_S3x512x256_S1x512x256_0_0_0,
          k0_pay12 (F := Ideal)
            (arg3.view.readAt (Elt Ideal) (Rect.unit (s := S1024x256) ![0, 0] S1024x256.size inb_S1024x256_S1024x256_0_0).toLoadRect (harg3.unread x1))
            (arg2.view.readAt (Elt Ideal) (Rect.unit (s := S3x512x1024) ![0, 0, 0] ![1, 512, 1024] inb_S3x512x1024_S1x512x1024_0_0_0).toLoadRect (harg2.unread x0))
            (arg8.view.readAt (Elt Ideal) (Rect.unit (s := S3x512x256) ![0, 0, 0] ![1, 512, 256] inb_S3x512x256_S1x512x256_0_0_0).toLoadRect (harg8.unread xs))⟩] :
        List (View.Piece (Elt Ideal) S3x512x256 .f32))
      (ix3 p r k) = slabAfter x0 x1 xs p r k := by
  have hp : p.val = 0 ∨ p.val = 1 ∨ p.val = 2 := by omega
  rcases hp with hp | hp | hp
  · refine (canon_off_slab 2 _ _ _ p (by omega) r k).trans ?_
    refine (canon_off_slab 1 _ _ _ p (by omega) r k).trans ?_
    refine (canon_slab 0 _ _ _ p hp r k).trans ?_
    refine (Pay.slab0_apply _ _ _ r k).trans ?_
    exact slab_reads arg2 harg2 arg3 harg3 arg8 harg8 x0 x1 xs 0 _ _ _ p hp r k
  · refine (canon_off_slab 2 _ _ _ p (by omega) r k).trans ?_
    refine (canon_slab 1 _ _ _ p hp r k).trans ?_
    refine (Pay.slab1_apply _ _ _ r k).trans ?_
    exact slab_reads arg2 harg2 arg3 harg3 arg8 harg8 x0 x1 xs 1 _ _ _ p hp r k
  · refine (canon_slab 2 _ _ _ p hp r k).trans ?_
    refine (Pay.slab2_apply _ _ _ r k).trans ?_
    exact slab_reads arg2 harg2 arg3 harg3 arg8 harg8 x0 x1 xs 2 _ _ _ p hp r k

/-! ## A first step -/

/-- The zero fill of the whole scratch leaves the zero word everywhere. -/
private theorem canon_fill (iz : ∀ a, (![0, 0, 0] : Fin 3 → ℕ) a + S3x512x256.size a ≤ S3x512x256.size a) (y : S3x512x256.Idx) :
    View.canon [(⟨Rect.unit (s := S3x512x256) ![0, 0, 0] S3x512x256.size iz, k0_pay10 (F := Ideal)⟩ : View.Piece (Elt Ideal) S3x512x256 .f32)] y
      = Cert.Spec.zero :=
  (congrFun (View.canon_unit_zero hz3 iz _) y).trans (Pay.reset_apply y)

/-- Slab `q`'s update at a first step, read from the step's blocks: the old slab reads the zero word. -/
private theorem first_reads (arg2 : Memref sig .tc .vmem S3x512x1024 .f32) (harg2 : arg2.IsWhole) (arg3 : Memref sig .tc .vmem S1024x256 .f32) (harg3 : arg3.IsWhole)
    (x0 : Vec Ideal S3x512x1024 .f32) (x1 : Vec Ideal S1024x256 .f32) (C : S1x512x256.Idx → Elt Ideal .f32) (q : ℕ)
    (i2 : ∀ c, (![q, 0, 0] : Fin 3 → ℕ) c + (![1, 512, 1024] : Fin 3 → ℕ) c ≤ S3x512x1024.size c)
    (i3 : ∀ c, (![0, 0] : Fin 2 → ℕ) c + S1024x256.size c ≤ S1024x256.size c)
    (p : Fin 3) (hp : p.val = q) (r : Fin 512) (k : Fin 256) (hC : C (ix3 0 r k) = Cert.Spec.zero) :
    C (ix3 0 r k)
      + ∑ j : Fin 1024, arg2.view.readAt (Elt Ideal) (Rect.unit (s := S3x512x1024) ![q, 0, 0] ![1, 512, 1024] i2).toLoadRect (harg2.unread x0) (ix3 0 r j)
          * arg3.view.readAt (Elt Ideal) (Rect.unit (s := S1024x256) ![0, 0] S1024x256.size i3).toLoadRect (harg3.unread x1) (ix2 j k)
      = Cert.Spec.zero + ∑ j : Fin 1024, x0 (ix3 p r j) * x1 (ix2 j k) := by
  refine congrArg₂ (· + ·) hC (Finset.sum_congr rfl fun j _ => ?_)
  exact congrArg₂ (· * ·) (readAt_slab arg2 harg2 x0 q i2 p hp r j) (congrFun (readAt_whole arg3 harg3 x1 hz2 i3) (ix2 j k))

/-! ## The output tile of a last step -/

/-- The tile's arithmetic with every operand read where it sits: the finished slabs `M`, the skip block `x2`, the
    weight slabs of `x3` and the bias rows of `x4`. -/
private theorem tile_of (m0 m1 m2 : Vec Ideal S1x512x256 .f32) (t : Vec Ideal S512x256 .f32) (w0 w1 w2 : Vec Ideal S1x256x256 .f32)
    (b0 b1 b2 : Vec Ideal S1x256 .f32) (M : Fin 3 → Fin 512 → Fin 256 → EReal)
    (x2 : Vec Ideal S512x256 .f32) (x3 : Vec Ideal S3x256x256 .f32) (x4 : Vec Ideal S3x256 .f32) (r : Fin 512) (j : Fin 256)
    (hm0 : ∀ k, m0 (ix3 0 r k) = M 0 r k) (hm1 : ∀ k, m1 (ix3 0 r k) = M 1 r k) (hm2 : ∀ k, m2 (ix3 0 r k) = M 2 r k)
    (ht : ∀ k, t (ix2 r k) = x2 (ix2 r k))
    (hw0 : ∀ k, w0 (ix3 0 k j) = x3 (ix3 0 k j)) (hw1 : ∀ k, w1 (ix3 0 k j) = x3 (ix3 1 k j)) (hw2 : ∀ k, w2 (ix3 0 k j) = x3 (ix3 2 k j))
    (hb0 : b0 (ix2 0 j) = x4 (ix2 0 j)) (hb1 : b1 (ix2 0 j) = x4 (ix2 1 j)) (hb2 : b2 (ix2 0 j) = x4 (ix2 2 j)) :
    k0_pay2 (F := Ideal) (k0_pay3 m0) (k0_pay4 m1) (k0_pay5 m2) (k0_pay6 w2) (k0_pay7 t w0 b0) (k0_pay8 m0 m1 m2 w1) (k0_pay9 b1) b2 (ix2 r j)
      = max ((((∑ k : Fin 256, x2 (ix2 r k) * x3 (ix3 0 k j)) + x4 (ix2 0 j))
              + ((∑ k : Fin 256, (M 0 r k + M 1 r k + M 2 r k) * x3 (ix3 1 k j))
                  + Cert.Spec.three * x4 (ix2 1 j)))
            + ((∑ k : Fin 256, (M 0 r k * M 0 r k + M 0 r k * M 1 r k
                    + M 0 r k * M 2 r k + M 1 r k * M 1 r k
                    + M 1 r k * M 2 r k + M 2 r k * M 2 r k) * x3 (ix3 2 k j))
                + Cert.Spec.six * x4 (ix2 2 j))) Cert.Spec.zero := by
  rw [Pay.tile_apply]
  simp only [hm0, hm1, hm2, ht, hw0, hw1, hw2, hb0, hb1, hb2]

/-- A first step starts every slab from the zero word. -/
theorem accFirst_apply (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : isFirstK i) (hc1 : ¬isLastK i)
    (x0 : Vec Ideal S3x512x1024 .f32) (x1 : Vec Ideal S1024x256 .f32) (x2 : Vec Ideal S512x256 .f32) (x3 : Vec Ideal S3x256x256 .f32) (x4 : Vec Ideal S3x256 .f32)
    (p : Fin 3) (r : Fin 512) (k : Fin 256) :
    accFirst (F := Ideal) c i arg2 harg2 arg3 harg3 arg4 harg4 arg5 harg5 arg6 harg6 arg7 harg7 arg8 harg8 hc0 hc1 x0 x1 x2 x3 x4 (ix3 p r k)
      = Cert.Spec.zero + ∑ j : Fin 1024, x0 (ix3 p r j) * x1 (ix2 j k) := by
  unfold accFirst; rw [View.read_writes_junk_eq_canon]; unfold runFirst; dsimp only; sl_unfold_words
  have hp : p.val = 0 ∨ p.val = 1 ∨ p.val = 2 := by omega
  rcases hp with hp | hp | hp
  · refine (canon_off_slab 2 _ _ _ p (by omega) r k).trans ?_
    refine (canon_off_slab 1 _ _ _ p (by omega) r k).trans ?_
    refine (canon_slab 0 _ _ _ p hp r k).trans ?_
    refine (Pay.slab0_apply _ _ _ r k).trans ?_
    refine first_reads arg2 harg2 arg3 harg3 x0 x1 _ 0 _ _ p hp r k ?_
    refine (readCov_slab arg8.view _ 0 _ p hp r k).trans ?_
    exact canon_fill _ _
  · refine (canon_off_slab 2 _ _ _ p (by omega) r k).trans ?_
    refine (canon_slab 1 _ _ _ p hp r k).trans ?_
    refine (Pay.slab1_apply _ _ _ r k).trans ?_
    refine first_reads arg2 harg2 arg3 harg3 x0 x1 _ 1 _ _ p hp r k ?_
    refine (readCov_slab arg8.view _ 1 _ p hp r k).trans ?_
    refine (canon_off_slab 0 _ _ _ p (by omega) r k).trans ?_
    exact canon_fill _ _
  · refine (canon_slab 2 _ _ _ p hp r k).trans ?_
    refine (Pay.slab2_apply _ _ _ r k).trans ?_
    refine first_reads arg2 harg2 arg3 harg3 x0 x1 _ 2 _ _ p hp r k ?_
    refine (readCov_slab arg8.view _ 2 _ p hp r k).trans ?_
    refine (canon_off_slab 1 _ _ _ p (by omega) r k).trans ?_
    refine (canon_off_slab 0 _ _ _ p (by omega) r k).trans ?_
    exact canon_fill _ _

/-- A middle step adds its partial product to what each slab held. -/
theorem accMid_apply (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : ¬isLastK i)
    (x0 : Vec Ideal S3x512x1024 .f32) (x1 : Vec Ideal S1024x256 .f32) (x2 : Vec Ideal S512x256 .f32) (x3 : Vec Ideal S3x256x256 .f32) (x4 : Vec Ideal S3x256 .f32)
    (xs : Vec Ideal S3x512x256 .f32) (p : Fin 3) (r : Fin 512) (k : Fin 256) :
    accMid (F := Ideal) c i arg2 harg2 arg3 harg3 arg4 harg4 arg5 harg5 arg6 harg6 arg7 harg7 arg8 harg8 hc0 hc1 x0 x1 x2 x3 x4 xs (ix3 p r k) = slabAfter x0 x1 xs p r k := by
  unfold accMid; rw [View.read_writes_junk_eq_canon]; unfold runMid; dsimp only; sl_unfold_words
  exact mid_canon arg2 harg2 arg3 harg3 arg8 harg8 x0 x1 xs p r k

/-- So does a last step. -/
theorem accLast_apply (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : isLastK i)
    (x0 : Vec Ideal S3x512x1024 .f32) (x1 : Vec Ideal S1024x256 .f32) (x2 : Vec Ideal S512x256 .f32) (x3 : Vec Ideal S3x256x256 .f32) (x4 : Vec Ideal S3x256 .f32)
    (xs : Vec Ideal S3x512x256 .f32) (p : Fin 3) (r : Fin 512) (k : Fin 256) :
    accLast (F := Ideal) c i arg2 harg2 arg3 harg3 arg4 harg4 arg5 harg5 arg6 harg6 arg7 harg7 arg8 harg8 hc0 hc1 x0 x1 x2 x3 x4 xs (ix3 p r k) = slabAfter x0 x1 xs p r k := by
  unfold accLast; rw [View.read_writes_junk_eq_canon]; unfold runLast; dsimp only; sl_unfold_words
  exact mid_canon arg2 harg2 arg3 harg3 arg8 harg8 x0 x1 xs p r k

/-- The output tile a last step writes: the three finished slabs `M p = slabAfter x0 x1 xs p` combined with the
    skip block `x2`, the transposed weights `x3` and the biases `x4`, in the body's own association. -/
theorem outLast_apply (c : Dev nD) (i : grid0.Coords) (arg2 : Memref sig .tc .vmem S3x512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S512x256 .f32) (harg7 : arg7.IsWhole) (arg8 : Memref sig .tc .vmem S3x512x256 .f32) (harg8 : arg8.IsWhole) (hc0 : ¬isFirstK i) (hc1 : isLastK i)
    (x0 : Vec Ideal S3x512x1024 .f32) (x1 : Vec Ideal S1024x256 .f32) (x2 : Vec Ideal S512x256 .f32) (x3 : Vec Ideal S3x256x256 .f32) (x4 : Vec Ideal S3x256 .f32)
    (xs : Vec Ideal S3x512x256 .f32) (r : Fin 512) (j : Fin 256) :
    outLast (F := Ideal) c i arg2 harg2 arg3 harg3 arg4 harg4 arg5 harg5 arg6 harg6 arg7 harg7 arg8 harg8 hc0 hc1 x0 x1 x2 x3 x4 xs (ix2 r j)
      = max ((((∑ k : Fin 256, x2 (ix2 r k) * x3 (ix3 0 k j)) + x4 (ix2 0 j))
              + ((∑ k : Fin 256, (slabAfter x0 x1 xs 0 r k + slabAfter x0 x1 xs 1 r k + slabAfter x0 x1 xs 2 r k) * x3 (ix3 1 k j))
                  + Cert.Spec.three * x4 (ix2 1 j)))
            + ((∑ k : Fin 256, (slabAfter x0 x1 xs 0 r k * slabAfter x0 x1 xs 0 r k + slabAfter x0 x1 xs 0 r k * slabAfter x0 x1 xs 1 r k
                    + slabAfter x0 x1 xs 0 r k * slabAfter x0 x1 xs 2 r k + slabAfter x0 x1 xs 1 r k * slabAfter x0 x1 xs 1 r k
                    + slabAfter x0 x1 xs 1 r k * slabAfter x0 x1 xs 2 r k + slabAfter x0 x1 xs 2 r k * slabAfter x0 x1 xs 2 r k) * x3 (ix3 2 k j))
                + Cert.Spec.six * x4 (ix2 2 j))) Cert.Spec.zero := by
  unfold outLast; rw [View.read_writes_junk_eq_canon]; unfold runLast; dsimp only; sl_unfold_words
  refine (congrFun (View.canon_unit_zero (S := S512x256) hz2 _ _) (ix2 r j)).trans ?_
  refine tile_of _ _ _ _ _ _ _ _ _ _ (slabAfter x0 x1 xs) x2 x3 x4 r j ?_ ?_ ?_ ?_ ?_ ?_ ?_ ?_ ?_ ?_
  · exact fun k => (readCov_slab arg8.view _ 0 _ (0 : Fin 3) rfl r k).trans (mid_canon arg2 harg2 arg3 harg3 arg8 harg8 x0 x1 xs 0 r k)
  · exact fun k => (readCov_slab arg8.view _ 1 _ (1 : Fin 3) rfl r k).trans (mid_canon arg2 harg2 arg3 harg3 arg8 harg8 x0 x1 xs 1 r k)
  · exact fun k => (readCov_slab arg8.view _ 2 _ (2 : Fin 3) rfl r k).trans (mid_canon arg2 harg2 arg3 harg3 arg8 harg8 x0 x1 xs 2 r k)
  · exact fun k => congrFun (readAt_whole arg4 harg4 x2 hz2 _) (ix2 r k)
  · exact fun k => readAt_slab arg5 harg5 x3 0 _ (0 : Fin 3) rfl k j
  · exact fun k => readAt_slab arg5 harg5 x3 1 _ (1 : Fin 3) rfl k j
  · exact fun k => readAt_slab arg5 harg5 x3 2 _ (2 : Fin 3) rfl k j
  · exact readAt_row arg6 harg6 x4 0 _ (0 : Fin 3) rfl j
  · exact readAt_row arg6 harg6 x4 1 _ (1 : Fin 3) rfl j
  · exact readAt_row arg6 harg6 x4 2 _ (2 : Fin 3) rfl j

end Cert.KernelIdeal.Hand

end
-- ==== Proof.KernelValue.Blocks.lean ====
import proofs.«104423_j26173530702105_1_alg».proof.Proof.KernelIdealFrame.Launch
import Idealize.ShloMosaic.Lib.Pipeline.Value
import Idealize.ShloMosaic.Lib.ValueIdx
import Idealize.ShloMosaic.Lib.StableHlo.Run

/-!
The windows' blocks as pieces of the argument arrays, and the output array from its tiles.

Point `t` of the 16 × 8 grid is row tile `t / 8` at contraction step `t % 8`.  Its block of the adjacency
powers is rows `512 (t / 8) + r`, columns `1024 (t % 8) + j` of every power; its contraction block of the
features is rows `1024 (t % 8) + j`; its skip block of the features and its output tile are rows
`512 (t / 8) + r`.  The weights reach the kernel transposed by the host (the last two axes exchanged), whole;
the biases whole.
-/

set_option maxRecDepth 16384

noncomputable section

namespace Cert.KernelIdeal.Hand

open Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The input blocks at a point, at their literal vector types. -/
abbrev blkA (c : Dev nD) (t : Fin cfg0.N) : Vec Ideal S3x512x1024 .f32 := iblk m c 0 t
abbrev blkXc (c : Dev nD) (t : Fin cfg0.N) : Vec Ideal S1024x256 .f32 := iblk m c 1 t
abbrev blkXs (c : Dev nD) (t : Fin cfg0.N) : Vec Ideal S512x256 .f32 := iblk m c 2 t
abbrev blkW (c : Dev nD) (t : Fin cfg0.N) : Vec Ideal S3x256x256 .f32 := iblk m c 3 t
abbrev blkB (c : Dev nD) (t : Fin cfg0.N) : Vec Ideal S3x256 .f32 := iblk m c 4 t

/-- The argument arrays as launched, at their literal types. -/
abbrev arrX (c : Dev nD) : Vec Ideal S8192x256 .f32 := m ((c : Thread nD τ).loc main_arg0)
abbrev arrA (c : Dev nD) : Vec Ideal S3x8192x8192 .f32 := m ((c : Thread nD τ).loc main_arg1)
abbrev arrW (c : Dev nD) : Vec Ideal S3x256x256 .f32 := m ((c : Thread nD τ).loc main_arg2)
abbrev arrB (c : Dev nD) : Vec Ideal S3x256 .f32 := m ((c : Thread nD τ).loc main_arg3)

/-- The windows' block indices at point `t`, decided over the grid: the row tile is `t / 8`, the contraction step `t % 8`. -/
private theorem idx_facts : ∀ t : Fin cfg0.N,
    win0_0.index t (0 : Fin 3) = 0 ∧ win0_0.index t (1 : Fin 3) = t.val / 8 ∧ win0_0.index t (2 : Fin 3) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val / 8 ∧ win0_5.index t (1 : Fin 2) = 0 :=
  (by decide +kernel : ∀ t : Fin grid0.N, _)

/-- Every index of the result array lies in the output tile of its row tile's last step: row `n` in the
tile of point `8 (n / 512) + 7`. -/
private theorem tile_cover (i : S8192x256.Idx) :
    ∃ t : Fin cfg0.N, (cfg0.win 5).flush t = true ∧ i ∈ ((cfg0.win 5).blk t).view.set := by
  have hi0 : (i 0).val < 8192 := (i 0).isLt
  have hi1 : (i 1).val < 256 := (i 1).isLt
  have hN : cfg0.N = 128 := N_0
  obtain ⟨t, ht⟩ : ∃ t : Fin cfg0.N, t.val = 8 * ((i 0).val / 512) + 7 := ⟨⟨8 * ((i 0).val / 512) + 7, by rw [hN]; omega⟩, rfl⟩
  refine ⟨t, (flush0_5 t).mpr (by omega), ?_⟩
  obtain ⟨-, -, -, -, -, -, -, -, -, -, -, -, e0, e1⟩ := idx_facts t
  show i ∈ ((View.whole main_v1).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 256 ≤ (i 1).val ∧ (i 1).val < win0_5.index t (1 : Fin 2) * 256 + 256
    omega

/-- The adjacency block: power `p`, row `512 (t / 8) + r`, column `1024 (t % 8) + j`. -/
theorem blkA_apply (c : Dev nD) (t : Fin cfg0.N) (p : Fin 3) (r : Fin 512) (j : Fin 1024) (n k : Fin 8192)
    (hn : n.val = 512 * (t.val / 8) + r.val) (hk : k.val = 1024 * (t.val % 8) + j.val) :
    blkA m c t (ix3 p r j) = arrA m c (ix3 p n k) := by
  show V m c main_arg1 (((cfg0.win 0).blk t).view.emb (ix3 p r j)) = m ((c : Thread nD τ).loc main_arg1) (ix3 p n k)
  rw [V_main_arg1]
  refine congrArg _ ?_
  obtain ⟨e0, e1, e2, -⟩ := idx_facts t
  funext a; apply Fin.ext
  match a with
  | ⟨0, _⟩ => show win0_0.index t (0 : Fin 3) * 3 + 1 * p.val = p.val; omega
  | ⟨1, _⟩ => show win0_0.index t (1 : Fin 3) * 512 + 1 * r.val = n.val; omega
  | ⟨2, _⟩ => show win0_0.index t (2 : Fin 3) * 1024 + 1 * j.val = k.val; omega

/-- The contraction block of the features: row `1024 (t % 8) + j`. -/
theorem blkXc_apply (c : Dev nD) (t : Fin cfg0.N) (j : Fin 1024) (d : Fin 256) (k : Fin 8192)
    (hk : k.val = 1024 * (t.val % 8) + j.val) :
    blkXc m c t (ix2 j d) = arrX m c (ix2 k d) := by
  show V m c main_arg0 (((cfg0.win 1).blk t).view.emb (ix2 j d)) = m ((c : Thread nD τ).loc main_arg0) (ix2 k d)
  rw [V_main_arg0]
  refine congrArg _ ?_
  obtain ⟨-, -, -, e0, e1, -⟩ := idx_facts t
  funext a; apply Fin.ext
  match a with
  | ⟨0, _⟩ => show win0_1.index t (0 : Fin 2) * 1024 + 1 * j.val = k.val; omega
  | ⟨1, _⟩ => show win0_1.index t (1 : Fin 2) * 256 + 1 * d.val = d.val; omega

/-- The skip block of the features: row `512 (t / 8) + r`. -/
theorem blkXs_apply (c : Dev nD) (t : Fin cfg0.N) (r : Fin 512) (d : Fin 256) (n : Fin 8192)
    (hn : n.val = 512 * (t.val / 8) + r.val) :
    blkXs m c t (ix2 r d) = arrX m c (ix2 n d) := by
  show V m c main_arg0 (((cfg0.win 2).blk t).view.emb (ix2 r d)) = m ((c : Thread nD τ).loc main_arg0) (ix2 n d)
  rw [V_main_arg0]
  refine congrArg _ ?_
  obtain ⟨-, -, -, -, -, e0, e1, -⟩ := idx_facts t
  funext a; apply Fin.ext
  match a with
  | ⟨0, _⟩ => show win0_2.index t (0 : Fin 2) * 512 + 1 * r.val = n.val; omega
  | ⟨1, _⟩ => show win0_2.index t (1 : Fin 2) * 256 + 1 * d.val = d.val; omega

/-- The weights as the kernel sees them: layer `q`'s matrix transposed. -/
theorem blkW_apply (c : Dev nD) (t : Fin cfg0.N) (q : Fin 3) (k j : Fin 256) :
    blkW m c t (ix3 q k j) = arrW m c (ix3 q j k) := by
  have e : (V m c main_v0 : S3x256x256.Idx → EReal)
      = transpose S3x256x256 [0, 2, 1] (arrW m c) transposes_S3x256x256_S3x256x256_0_2_1 := by
    dsimp only [V, hostOps0]; after_results
  show V m c main_v0 (((cfg0.win 3).blk t).view.emb (ix3 q k j)) = arrW m c (ix3 q j k)
  rw [e]
  obtain ⟨-, -, -, -, -, -, -, e0, e1, e2, -⟩ := idx_facts t
  refine transpose_apply [0, 2, 1] (arrW m c) transposes_S3x256x256_S3x256x256_0_2_1 _ (ix3 q j k) fun b => ?_
  match b with
  | ⟨0, _⟩ => show q.val = win0_3.index t (0 : Fin 3) * 3 + 1 * q.val; omega
  | ⟨1, _⟩ => show k.val = win0_3.index t (1 : Fin 3) * 256 + 1 * k.val; omega
  | ⟨2, _⟩ => show j.val = win0_3.index t (2 : Fin 3) * 256 + 1 * j.val; omega

/-- The biases, whole. -/
theorem blkB_apply (c : Dev nD) (t : Fin cfg0.N) (q : Fin 3) (j : Fin 256) :
    blkB m c t (ix2 q j) = arrB m c (ix2 q j) := by
  show V m c main_arg3 (((cfg0.win 4).blk t).view.emb (ix2 q j)) = m ((c : Thread nD τ).loc main_arg3) (ix2 q j)
  rw [V_main_arg3]
  refine congrArg _ ?_
  obtain ⟨-, -, -, -, -, -, -, -, -, -, e0, e1, -⟩ := idx_facts t
  funext a; apply Fin.ext
  match a with
  | ⟨0, _⟩ => show win0_4.index t (0 : Fin 2) * 3 + 1 * q.val = q.val; omega
  | ⟨1, _⟩ => show win0_4.index t (1 : Fin 2) * 256 + 1 * j.val = j.val; omega

/-- The result array after the run is any function `G` whose rows `512 (t / 8) + r` are what the last step of
    row tile `t / 8` left in the output buffer: the sixteen tiles, written back at the points `t % 8 = 7`, tile it. -/
theorem out_final (c : Dev nD) (G : Vec Ideal S8192x256 .f32)
    (hG : ∀ t : Fin cfg0.N, t.val % 8 = 7 → ∀ (r : Fin 512) (j : Fin 256) (n : Fin 8192), n.val = 512 * (t.val / 8) + r.val →
      outAt m c t (ix2 r j) = G (ix2 n j)) :
    ((dats m 0 c).arrAt 5 cfg0.N : Vec Ideal S8192x256 .f32) = G := by
  refine (dats m 0 c).arrAt_eq_of_cover 5 G (fun t hf => ?_) tile_cover
  funext y
  have h0 : (y 0).val < 512 := (y 0).isLt
  have h1 : (y 1).val < 256 := (y 1).isLt
  have ht : t.val % 8 = 7 := (flush0_5 t).mp hf
  have hN : t.val < 128 := lt_of_lt_of_eq t.isLt N_0
  have hn : 512 * (t.val / 8) + (y 0).val < 8192 := by omega
  have key := hG t ht ⟨(y 0).val, h0⟩ ⟨(y 1).val, h1⟩ ⟨512 * (t.val / 8) + (y 0).val, hn⟩ rfl
  obtain ⟨-, -, -, -, -, -, -, -, -, -, -, -, e0, e1⟩ := idx_facts t
  have ey : (cfg0.win 5).xinj (grid0.coords t) y = ix2 (⟨(y 0).val, h0⟩ : Fin 512) (⟨(y 1).val, h1⟩ : Fin 256) :=
    funext fun a => Fin.ext (by
      match a with
      | ⟨0, _⟩ => rfl
      | ⟨1, _⟩ => rfl)
  have eg : ((cfg0.win 5).blk t).view.emb y
      = ix2 (⟨512 * (t.val / 8) + (y 0).val, hn⟩ : Fin 8192) (⟨(y 1).val, h1⟩ : Fin 256) :=
    funext fun a => Fin.ext (by
      match a with
      | ⟨0, _⟩ => show win0_5.index t (0 : Fin 2) * 512 + 1 * (y 0).val = 512 * (t.val / 8) + (y 0).val; omega
      | ⟨1, _⟩ => show win0_5.index t (1 : Fin 2) * 256 + 1 * (y 1).val = (y 1).val; omega)
  show outAt m c t ((cfg0.win 5).xinj (grid0.coords t) y) = G (((cfg0.win 5).blk t).view.emb y)
  rw [ey, eg]
  exact key

end Cert.KernelIdeal.Hand

end
-- ==== Proof.LibBlockSum.lean ====
/-
  Two facts about finite sums in a commutative monoid, used to compare an inner product accumulated block by
  block with the same inner product taken in one pass.  Neither needs the summands to be finite numbers:
  only that addition is associative and commutative (as it is on the extended reals).
-/
import Mathlib.Algebra.BigOperators.Fin
import Mathlib.Algebra.BigOperators.Intervals
import Mathlib.Logic.Equiv.Fin.Basic

namespace Cert.BlockSum

open Finset

/-- A sum over `n = nb * b` indices is the sum over the `nb` blocks of the sums over each block's `b` indices;
    index `kk` of block `kb` is `kb * b + kk`. -/
theorem sum_blocks {M : Type*} [AddCommMonoid M] {n : ℕ} (nb b : ℕ) (h : n = nb * b) (f : Fin n → M) :
    ∑ k : Fin n, f k
      = ∑ kb : Fin nb, ∑ kk : Fin b, f ⟨kb.val * b + kk.val, by
          subst h
          calc kb.val * b + kk.val < kb.val * b + b := Nat.add_lt_add_left kk.isLt _
            _ = (kb.val + 1) * b := (Nat.succ_mul _ _).symm
            _ ≤ nb * b := Nat.mul_le_mul_right _ kb.isLt⟩ := by
  subst h
  rw [← Fintype.sum_prod_type', ← (finProdFinEquiv (m := nb) (n := b)).sum_comp]
  refine Fintype.sum_congr _ _ fun p => ?_
  congr 1
  apply Fin.ext
  show p.2.val + b * p.1.val = p.1.val * b + p.2.val
  rw [Nat.mul_comm, Nat.add_comm]

/-- A running total that starts at the first term added to zero and then adds one term per step is, after step
    `k`, the sum of the terms `0 … k`. -/
theorem running_total {M : Type*} [AddCommMonoid M] (P a : ℕ → M) (h0 : a 0 = 0 + P 0)
    (hs : ∀ k, a (k + 1) = a k + P (k + 1)) (k : ℕ) : a k = ∑ i ∈ range (k + 1), P i := by
  induction k with
  | zero => rw [h0, zero_add, sum_range_one]
  | succ k ih => rw [hs, ih, sum_range_succ (fun i => P i) (k + 1)]

/-- The same total over all `nb` blocks, as a sum over `Fin nb`. -/
theorem running_total_last {M : Type*} [AddCommMonoid M] (nb : ℕ) (P a : ℕ → M) (h0 : a 0 = 0 + P 0)
    (hs : ∀ k, a (k + 1) = a k + P (k + 1)) : a nb = ∑ i : Fin (nb + 1), P i.val := by
  rw [running_total P a h0 hs nb, Fin.sum_univ_eq_sum_range (fun i => P i) (nb + 1)]

end Cert.BlockSum
-- ==== Proof.KernelValue.Final.lean ====
import proofs.«104423_j26173530702105_1_alg».proof.Proof.KernelValue.Steps
import proofs.«104423_j26173530702105_1_alg».proof.Proof.KernelValue.Blocks
import proofs.«104423_j26173530702105_1_alg».proof.Proof.LibBlockSum
import proofs.«104423_j26173530702105_1_alg».proof.Proof.Spec

/-!
The kernel's result array is the layer's specification.

Along a row tile the accumulator gathers, step by step, the 1024-column pieces of the three products
`A p · X`; after the eighth step it holds the tile's rows of the whole products, a sum over 8192 columns taken
in eight blocks.  The last step's epilogue then forms the specification's rows, up to the grouping of its five
additions.
-/

set_option maxRecDepth 16384

noncomputable section

namespace Cert.KernelIdeal.Hand

open Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## A sum over 8192 columns in eight blocks of 1024 -/

/-- Block `kk`'s share of a sum over 8192 columns (nothing beyond the eighth block). -/
def partN (f : Fin 8192 → EReal) (kk : ℕ) : EReal :=
  if h : kk < 8 then ∑ j : Fin 1024, f ⟨kk * 1024 + j.val, by have := j.isLt; omega⟩ else 0

theorem sum_partN (f : Fin 8192 → EReal) : ∑ kk ∈ Finset.range 8, partN f kk = ∑ q : Fin 8192, f q := by
  rw [Cert.BlockSum.sum_blocks 8 1024 rfl f, Finset.sum_range]
  exact Finset.sum_congr rfl fun kb _ => by unfold partN; rw [dif_pos kb.isLt]

theorem zero_eq : Cert.Spec.zero = 0 := Ideal.ofBits_zero_f32

/-! ## The accumulator along a row tile -/

theorem lt_N (I K : ℕ) (hI : I < 16) (hK : K < 8) : 8 * I + K < cfg0.N := by
  rw [show cfg0.N = 128 from N_0]; omega

theorem accAt_congr (c : Dev nD) {n n' : ℕ} (h : n = n') (hn : n < cfg0.N) (hn' : n' < cfg0.N) :
    accAt m c n hn = accAt m c n' hn' := by subst h; rfl

/-- After step `K` of row tile `I`, slab `p` holds at row `r`, feature `k` the first `K + 1` blocks' share of
    `∑ q, A[p, 512 I + r, q] * X[q, k]`. -/
theorem acc_inv (c : Dev nD) (I : ℕ) (hI : I < 16) (p : Fin 3) (r : Fin 512) (k : Fin 256) (n : Fin 8192)
    (hn : n.val = 512 * I + r.val) :
    ∀ (K : ℕ) (hK : K < 8), accAt m c (8 * I + K) (lt_N I K hI hK) (ix3 p r k)
      = ∑ kk ∈ Finset.range (K + 1), partN (fun q => arrA m c (ix3 p n q) * arrX m c (ix2 q k)) kk := by
  intro K
  induction K with
  | zero =>
    intro hK
    let t : Fin cfg0.N := ⟨8 * I + 0, lt_N I 0 hI hK⟩
    have h0 : t.val % 8 = 0 := by show (8 * I + 0) % 8 = 0; omega
    show accAt m c t.val t.isLt (ix3 p r k) = _
    rw [accAt_first m c t h0]
    refine (accFirst_apply c (grid0.coords t) (ms0 t) (hs0 t) (ms1 t) (hs1 t) (ms2 t) (hs2 t) (ms3 t) (hs3 t) (ms4 t) (hs4 t) (ms5 t) (hs5 t) accM (Memref.isWhole_whole _) (first_of t h0) (not_last_of t (by omega)) (blkA m c t) (blkXc m c t) (blkXs m c t) (blkW m c t) (blkB m c t) p r k).trans ?_
    rw [Finset.sum_range_one, zero_eq, zero_add]
    unfold partN
    rw [dif_pos (by omega)]
    refine Finset.sum_congr rfl fun j _ => ?_
    rw [blkA_apply m c t p r j n ⟨0 * 1024 + j.val, by have := j.isLt; omega⟩ (by show n.val = 512 * ((8 * I + 0) / 8) + r.val; omega)
        (by show 0 * 1024 + j.val = 1024 * ((8 * I + 0) % 8) + j.val; omega),
      blkXc_apply m c t j k ⟨0 * 1024 + j.val, by have := j.isLt; omega⟩ (by show 0 * 1024 + j.val = 1024 * ((8 * I + 0) % 8) + j.val; omega)]
  | succ K ih =>
    intro hK
    let t : Fin cfg0.N := ⟨8 * I + (K + 1), lt_N I (K + 1) hI hK⟩
    have h0 : ¬t.val % 8 = 0 := by show ¬(8 * I + (K + 1)) % 8 = 0; omega
    have hprev : accPrev m c t (ix3 p r k)
        = ∑ kk ∈ Finset.range (K + 1), partN (fun q => arrA m c (ix3 p n q) * arrX m c (ix2 q k)) kk := by
      rw [← ih (by omega)]
      exact congrFun (accAt_congr m c (by show 8 * I + (K + 1) - 1 = 8 * I + K; omega) _ _) _
    have hstep : accAt m c t.val t.isLt (ix3 p r k) = slabAfter (blkA m c t) (blkXc m c t) (accPrev m c t) p r k := by
      by_cases h1 : t.val % 8 = 7
      · rw [accAt_last m c t h0 h1]
        exact accLast_apply c (grid0.coords t) (ms0 t) (hs0 t) (ms1 t) (hs1 t) (ms2 t) (hs2 t) (ms3 t) (hs3 t) (ms4 t) (hs4 t) (ms5 t) (hs5 t) accM (Memref.isWhole_whole _) (not_first_of t h0) (last_of t h1) (blkA m c t) (blkXc m c t) (blkXs m c t) (blkW m c t) (blkB m c t) (accPrev m c t) p r k
      · rw [accAt_mid m c t h0 h1]
        exact accMid_apply c (grid0.coords t) (ms0 t) (hs0 t) (ms1 t) (hs1 t) (ms2 t) (hs2 t) (ms3 t) (hs3 t) (ms4 t) (hs4 t) (ms5 t) (hs5 t) accM (Memref.isWhole_whole _) (not_first_of t h0) (not_last_of t h1) (blkA m c t) (blkXc m c t) (blkXs m c t) (blkW m c t) (blkB m c t) (accPrev m c t) p r k
    show accAt m c t.val t.isLt (ix3 p r k) = _
    rw [hstep, Finset.sum_range_succ]
    unfold slabAfter
    rw [hprev]
    congr 1
    unfold partN
    rw [dif_pos hK]
    refine Finset.sum_congr rfl fun j _ => ?_
    rw [blkA_apply m c t p r j n ⟨(K + 1) * 1024 + j.val, by have := j.isLt; omega⟩ (by show n.val = 512 * ((8 * I + (K + 1)) / 8) + r.val; omega)
        (by show (K + 1) * 1024 + j.val = 1024 * ((8 * I + (K + 1)) % 8) + j.val; omega),
      blkXc_apply m c t j k ⟨(K + 1) * 1024 + j.val, by have := j.isLt; omega⟩ (by show (K + 1) * 1024 + j.val = 1024 * ((8 * I + (K + 1)) % 8) + j.val; omega)]

/-- At a row tile's last step the three slabs hold the tile's rows of the whole products `A p · X`. -/
theorem slab_total (c : Dev nD) (t : Fin cfg0.N) (h1 : t.val % 8 = 7) (p : Fin 3) (r : Fin 512) (k : Fin 256) (n : Fin 8192)
    (hn : n.val = 512 * (t.val / 8) + r.val) :
    slabAfter (blkA m c t) (blkXc m c t) (accPrev m c t) p r k = Cert.Spec.prop (arrX m c) (arrA m c) p n k := by
  have hN : t.val < 128 := lt_of_lt_of_eq t.isLt (show cfg0.N = 128 from N_0)
  have h0 : ¬t.val % 8 = 0 := by omega
  have hI : t.val / 8 < 16 := by omega
  rw [← accLast_apply c (grid0.coords t) (ms0 t) (hs0 t) (ms1 t) (hs1 t) (ms2 t) (hs2 t) (ms3 t) (hs3 t) (ms4 t) (hs4 t) (ms5 t) (hs5 t) accM (Memref.isWhole_whole _) (not_first_of t h0) (last_of t h1) (blkA m c t) (blkXc m c t) (blkXs m c t) (blkW m c t) (blkB m c t) (accPrev m c t) p r k,
    ← accAt_last m c t h0 h1]
  have e := acc_inv m c (t.val / 8) hI p r k n hn 7 (by omega)
  rw [sum_partN] at e
  exact (congrFun (accAt_congr m c (by omega) _ _) _).trans e

/-! ## The result array -/

/-- The layer's specification at the launched arguments. -/
def spec (c : Dev nD) : Vec Ideal S8192x256 .f32 := Cert.Spec.G (arrX m c) (arrA m c) (arrW m c) (arrB m c)

/-- After the run the result array holds the specification of the argument arrays. -/
theorem final (c : Dev nD) : ((dats m 0 c).arrAt 5 cfg0.N : Vec Ideal S8192x256 .f32) = spec m c := by
  refine out_final m c (spec m c) fun t h1 r j n hn => ?_
  have hN : t.val < 128 := lt_of_lt_of_eq t.isLt (show cfg0.N = 128 from N_0)
  rw [outAt_last m c t h1]
  refine (outLast_apply c (grid0.coords t) (ms0 t) (hs0 t) (ms1 t) (hs1 t) (ms2 t) (hs2 t) (ms3 t) (hs3 t) (ms4 t) (hs4 t) (ms5 t) (hs5 t) accM (Memref.isWhole_whole _) (not_first_of t (by omega)) (last_of t h1) (blkA m c t) (blkXc m c t) (blkXs m c t) (blkW m c t) (blkB m c t) (accPrev m c t) r j).trans ?_
  unfold spec
  rw [Cert.Spec.G_apply]
  unfold Cert.Spec.pre Cert.Spec.lin Cert.Spec.ord1 Cert.Spec.ord2
  simp only [slab_total m c t h1 _ r _ n hn, blkXs_apply m c t r _ n hn, blkW_apply, blkB_apply, add_assoc]

/-- The idealized kernel's run with its result named: the result array ends at the specification of the launched
    arguments, and the four argument arrays end as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v1) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 5).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (h c).2,
      ((h c).1 4).trans (((dats m 0 c).arrAt_in 4 rfl _).trans ((A_eq m c 4).trans (V_main_arg3 m c)))⟩) (run_main m ρ)

end Cert.KernelIdeal.Hand

end
-- ==== Proof.RefIsSpec.lean ====
import proofs.«104423_j26173530702105_1_alg».proof.Proof.Gen.ReferenceIdeal.Read
import proofs.«104423_j26173530702105_1_alg».proof.Proof.Spec

/-!
The reference program's result, stage by stage as its read-at-an-index lemmas give it, is the layer's
specification `Cert.Spec.G` of the four argument arrays.
-/

noncomputable section

namespace Cert.RefValue

open Idealize.ShloMosaic Idealize.ShloMosaic.ValueIdx
open Cert.ReferenceIdeal Cert.ReferenceIdeal.Read

section Stages

variable (X : (⟨S8192x256, .f32⟩ : BufTy).Contents (Elt Ideal)) (A : (⟨S3x8192x8192, .f32⟩ : BufTy).Contents (Elt Ideal))
  (W : (⟨S3x256x256, .f32⟩ : BufTy).Contents (Elt Ideal)) (b : (⟨S3x256, .f32⟩ : BufTy).Contents (Elt Ideal))

/-! ## The propagated features -/

/-- The first stage at `(p, n, d)` is the propagated feature `(A p · X) (n, d)`. -/
private theorem prop_ix (p : Fin 3) (n : Fin 8192) (d : Fin 256) :
    val_main_v0 (F := Ideal) X A (ix3 p n d) = Cert.Spec.prop X A p n d := by
  rw [val_main_v0_apply]
  unfold Cert.Spec.prop
  refine Finset.sum_congr rfl fun k _ => ?_
  have el : lidx_main_v0 (ix3 p n d) k = ix3 p n k := funext fun a => Fin.ext (by
    match a with
    | ⟨0, _⟩ => rfl
    | ⟨1, _⟩ => rfl
    | ⟨2, _⟩ => rfl)
  have er : ridx_main_v0 (ix3 p n d) k = ix2 k d := funext fun a => Fin.ext (by
    match a with
    | ⟨0, _⟩ => rfl
    | ⟨1, _⟩ => rfl)
  rw [el, er]

/-- The first stage at any index whose coordinates are `p`, and the row and column of the flat position
`n * 256 + d`, is the propagated feature at `(p, n, d)`. -/
private theorem prop_at (p : Fin 3) (n : Fin 8192) (d : Fin 256) (j : S3x8192x256.Idx)
    (h0 : (j 0).val = p.val) (h1 : (j 1).val = (n.val * 256 + d.val) / 256 % 8192)
    (h2 : (j 2).val = (n.val * 256 + d.val) % 256) :
    val_main_v0 (F := Ideal) X A j = Cert.Spec.prop X A p n d := by
  have hj : j = ix3 p n d := funext fun a => Fin.ext (by
    have hn : n.val < 8192 := n.isLt
    have hd : d.val < 256 := d.isLt
    match a with
    | ⟨0, _⟩ => exact h0
    | ⟨1, _⟩ => exact h1.trans (show (n.val * 256 + d.val) / 256 % 8192 = n.val by omega)
    | ⟨2, _⟩ => exact h2.trans (show (n.val * 256 + d.val) % 256 = d.val by omega))
  rw [hj]
  exact prop_ix X A p n d

/-! ## The fifteen slices of the propagated features

Each is the slab `p` of the first stage, reshaped to a matrix: at `(n, d)` it is the propagated feature at `(p, n, d)`. -/

private theorem slab_v11 (n : Fin 8192) (d : Fin 256) :
    val_main_v11 (F := Ideal) X A (ix2 n d) = Cert.Spec.prop X A 0 n d := by
  rw [val_main_v11_apply, val_main_v10_apply]
  exact prop_at X A 0 n d _ rfl rfl rfl

private theorem slab_v13 (n : Fin 8192) (d : Fin 256) :
    val_main_v13 (F := Ideal) X A (ix2 n d) = Cert.Spec.prop X A 1 n d := by
  rw [val_main_v13_apply, val_main_v12_apply]
  exact prop_at X A 1 n d _ rfl rfl rfl

private theorem slab_v15 (n : Fin 8192) (d : Fin 256) :
    val_main_v15 (F := Ideal) X A (ix2 n d) = Cert.Spec.prop X A 2 n d := by
  rw [val_main_v15_apply, val_main_v14_apply]
  exact prop_at X A 2 n d _ rfl rfl rfl

private theorem slab_v31 (n : Fin 8192) (d : Fin 256) :
    val_main_v31 (F := Ideal) X A (ix2 n d) = Cert.Spec.prop X A 0 n d := by
  rw [val_main_v31_apply, val_main_v30_apply]
  exact prop_at X A 0 n d _ rfl rfl rfl

private theorem slab_v33 (n : Fin 8192) (d : Fin 256) :
    val_main_v33 (F := Ideal) X A (ix2 n d) = Cert.Spec.prop X A 0 n d := by
  rw [val_main_v33_apply, val_main_v32_apply]
  exact prop_at X A 0 n d _ rfl rfl rfl

private theorem slab_v36 (n : Fin 8192) (d : Fin 256) :
    val_main_v36 (F := Ideal) X A (ix2 n d) = Cert.Spec.prop X A 0 n d := by
  rw [val_main_v36_apply, val_main_v35_apply]
  exact prop_at X A 0 n d _ rfl rfl rfl

private theorem slab_v38 (n : Fin 8192) (d : Fin 256) :
    val_main_v38 (F := Ideal) X A (ix2 n d) = Cert.Spec.prop X A 1 n d := by
  rw [val_main_v38_apply, val_main_v37_apply]
  exact prop_at X A 1 n d _ rfl rfl rfl

private theorem slab_v41 (n : Fin 8192) (d : Fin 256) :
    val_main_v41 (F := Ideal) X A (ix2 n d) = Cert.Spec.prop X A 0 n d := by
  rw [val_main_v41_apply, val_main_v40_apply]
  exact prop_at X A 0 n d _ rfl rfl rfl

private theorem slab_v43 (n : Fin 8192) (d : Fin 256) :
    val_main_v43 (F := Ideal) X A (ix2 n d) = Cert.Spec.prop X A 2 n d := by
  rw [val_main_v43_apply, val_main_v42_apply]
  exact prop_at X A 2 n d _ rfl rfl rfl

private theorem slab_v46 (n : Fin 8192) (d : Fin 256) :
    val_main_v46 (F := Ideal) X A (ix2 n d) = Cert.Spec.prop X A 1 n d := by
  rw [val_main_v46_apply, val_main_v45_apply]
  exact prop_at X A 1 n d _ rfl rfl rfl

private theorem slab_v48 (n : Fin 8192) (d : Fin 256) :
    val_main_v48 (F := Ideal) X A (ix2 n d) = Cert.Spec.prop X A 1 n d := by
  rw [val_main_v48_apply, val_main_v47_apply]
  exact prop_at X A 1 n d _ rfl rfl rfl

private theorem slab_v51 (n : Fin 8192) (d : Fin 256) :
    val_main_v51 (F := Ideal) X A (ix2 n d) = Cert.Spec.prop X A 1 n d := by
  rw [val_main_v51_apply, val_main_v50_apply]
  exact prop_at X A 1 n d _ rfl rfl rfl

private theorem slab_v53 (n : Fin 8192) (d : Fin 256) :
    val_main_v53 (F := Ideal) X A (ix2 n d) = Cert.Spec.prop X A 2 n d := by
  rw [val_main_v53_apply, val_main_v52_apply]
  exact prop_at X A 2 n d _ rfl rfl rfl

private theorem slab_v56 (n : Fin 8192) (d : Fin 256) :
    val_main_v56 (F := Ideal) X A (ix2 n d) = Cert.Spec.prop X A 2 n d := by
  rw [val_main_v56_apply, val_main_v55_apply]
  exact prop_at X A 2 n d _ rfl rfl rfl

private theorem slab_v58 (n : Fin 8192) (d : Fin 256) :
    val_main_v58 (F := Ideal) X A (ix2 n d) = Cert.Spec.prop X A 2 n d := by
  rw [val_main_v58_apply, val_main_v57_apply]
  exact prop_at X A 2 n d _ rfl rfl rfl

/-! ## The order-1 and order-2 combinations -/

/-- The sum of the three slabs is the order-1 combination. -/
private theorem ord1_at (n : Fin 8192) (d : Fin 256) :
    val_main_v17 (F := Ideal) X A (ix2 n d) = Cert.Spec.ord1 (Cert.Spec.prop X A) n d := by
  rw [val_main_v17_apply, val_main_v16_apply, slab_v11, slab_v13, slab_v15]
  rfl

/-- The sum of the six pairwise products is the order-2 combination. -/
private theorem ord2_at (n : Fin 8192) (d : Fin 256) :
    val_main_v64 (F := Ideal) X A (ix2 n d) = Cert.Spec.ord2 (Cert.Spec.prop X A) n d := by
  rw [val_main_v64_apply, val_main_v63_apply, val_main_v62_apply, val_main_v61_apply, val_main_v60_apply,
    val_main_v34_apply, val_main_v39_apply, val_main_v44_apply, val_main_v49_apply, val_main_v54_apply, val_main_v59_apply,
    slab_v31, slab_v33, slab_v36, slab_v38, slab_v41, slab_v43, slab_v46, slab_v48, slab_v51, slab_v53, slab_v56, slab_v58]
  rfl

/-! ## The weight matrices, transposed -/

/-- An index of the weight array with first coordinate `r` and the row and column of the flat position `j * 256 + k`. -/
private theorem w_idx (r : Fin 3) (j k : Fin 256) (q : S3x256x256.Idx)
    (h0 : (q 0).val = r.val) (h1 : (q 1).val = (j.val * 256 + k.val) / 256 % 256)
    (h2 : (q 2).val = (j.val * 256 + k.val) % 256) : q = ix3 r j k :=
  funext fun a => Fin.ext (by
    have hj : j.val < 256 := j.isLt
    have hk : k.val < 256 := k.isLt
    match a with
    | ⟨0, _⟩ => exact h0
    | ⟨1, _⟩ => exact h1.trans (show (j.val * 256 + k.val) / 256 % 256 = j.val by omega)
    | ⟨2, _⟩ => exact h2.trans (show (j.val * 256 + k.val) % 256 = k.val by omega))

/-- The transposed slab `0` of the weights at `(k, j)` is `W[0, j, k]`. -/
private theorem wt_v3 (k j : Fin 256) :
    val_main_v3 (F := Ideal) W (ix2 k j) = W (ix3 0 j k) := by
  rw [val_main_v3_apply, val_main_v2_apply, val_main_v1_apply]
  exact congrArg W (w_idx 0 j k _ rfl rfl rfl)

/-- The transposed slab `1` of the weights at `(k, j)` is `W[1, j, k]`. -/
private theorem wt_v20 (k j : Fin 256) :
    val_main_v20 (F := Ideal) W (ix2 k j) = W (ix3 1 j k) := by
  rw [val_main_v20_apply, val_main_v19_apply, val_main_v18_apply]
  exact congrArg W (w_idx 1 j k _ rfl rfl rfl)

/-- The transposed slab `2` of the weights at `(k, j)` is `W[2, j, k]`. -/
private theorem wt_v67 (k j : Fin 256) :
    val_main_v67 (F := Ideal) W (ix2 k j) = W (ix3 2 j k) := by
  rw [val_main_v67_apply, val_main_v66_apply, val_main_v65_apply]
  exact congrArg W (w_idx 2 j k _ rfl rfl rfl)

/-! ## The three linear stages -/

/-- The features through the first linear layer. -/
private theorem lin0_at (n : Fin 8192) (j : Fin 256) :
    val_main_v4 (F := Ideal) X W (ix2 n j) = Cert.Spec.lin (fun n k => X (ix2 n k)) W 0 n j := by
  rw [val_main_v4_apply]
  unfold Cert.Spec.lin
  refine Finset.sum_congr rfl fun k _ => ?_
  have el : lidx_main_v4 (ix2 n j) k = ix2 n k := funext fun a => Fin.ext (by
    match a with
    | ⟨0, _⟩ => rfl
    | ⟨1, _⟩ => rfl)
  have er : ridx_main_v4 (ix2 n j) k = ix2 k j := funext fun a => Fin.ext (by
    match a with
    | ⟨0, _⟩ => rfl
    | ⟨1, _⟩ => rfl)
  rw [el, er, wt_v3]

/-- The order-1 combination through the second linear layer. -/
private theorem lin1_at (n : Fin 8192) (j : Fin 256) :
    val_main_v21 (F := Ideal) X A W (ix2 n j) = Cert.Spec.lin (Cert.Spec.ord1 (Cert.Spec.prop X A)) W 1 n j := by
  rw [val_main_v21_apply]
  unfold Cert.Spec.lin
  refine Finset.sum_congr rfl fun k _ => ?_
  have el : lidx_main_v21 (ix2 n j) k = ix2 n k := funext fun a => Fin.ext (by
    match a with
    | ⟨0, _⟩ => rfl
    | ⟨1, _⟩ => rfl)
  have er : ridx_main_v21 (ix2 n j) k = ix2 k j := funext fun a => Fin.ext (by
    match a with
    | ⟨0, _⟩ => rfl
    | ⟨1, _⟩ => rfl)
  rw [el, er, ord1_at, wt_v20]

/-- The order-2 combination through the third linear layer. -/
private theorem lin2_at (n : Fin 8192) (j : Fin 256) :
    val_main_v68 (F := Ideal) X A W (ix2 n j) = Cert.Spec.lin (Cert.Spec.ord2 (Cert.Spec.prop X A)) W 2 n j := by
  rw [val_main_v68_apply]
  unfold Cert.Spec.lin
  refine Finset.sum_congr rfl fun k _ => ?_
  have el : lidx_main_v68 (ix2 n j) k = ix2 n k := funext fun a => Fin.ext (by
    match a with
    | ⟨0, _⟩ => rfl
    | ⟨1, _⟩ => rfl)
  have er : ridx_main_v68 (ix2 n j) k = ix2 k j := funext fun a => Fin.ext (by
    match a with
    | ⟨0, _⟩ => rfl
    | ⟨1, _⟩ => rfl)
  rw [el, er, ord2_at, wt_v67]

/-! ## The three bias rows, broadcast over the nodes -/

/-- An index of the bias array with first coordinate `r` and second coordinate `j`. -/
private theorem b_idx (r : Fin 3) (j : Fin 256) (q : S3x256.Idx)
    (h0 : (q 0).val = r.val) (h1 : (q 1).val = j.val % 256) : q = ix2 r j :=
  funext fun a => Fin.ext (by
    have hj : j.val < 256 := j.isLt
    match a with
    | ⟨0, _⟩ => exact h0
    | ⟨1, _⟩ => exact h1.trans (show j.val % 256 = j.val by omega))

/-- The first bias row. -/
private theorem bias0_at (n : Fin 8192) (j : Fin 256) :
    val_main_v8 (F := Ideal) b (ix2 n j) = b (ix2 0 j) := by
  rw [val_main_v8_apply, val_main_v7_apply, val_main_v6_apply, val_main_v5_apply]
  exact congrArg b (b_idx 0 j _ rfl rfl)

/-- Three times the second bias row, the constant on the left. -/
private theorem bias1_at (n : Fin 8192) (j : Fin 256) :
    val_main_v28 (F := Ideal) b (ix2 n j) = Cert.Spec.three * b (ix2 1 j) := by
  rw [val_main_v28_apply, val_main_v27_apply, val_main_v26_apply, val_main_v25_apply, val_main_cst_apply,
    val_main_v24_apply, val_main_v23_apply]
  exact congrArg (fun q => Cert.Spec.three * b q) (b_idx 1 j _ rfl rfl)

/-- Six times the third bias row, the constant on the left. -/
private theorem bias2_at (n : Fin 8192) (j : Fin 256) :
    val_main_v75 (F := Ideal) b (ix2 n j) = Cert.Spec.six * b (ix2 2 j) := by
  rw [val_main_v75_apply, val_main_v74_apply, val_main_v73_apply, val_main_v72_apply, val_main_cst_0_apply,
    val_main_v71_apply, val_main_v70_apply]
  exact congrArg (fun q => Cert.Spec.six * b q) (b_idx 2 j _ rfl rfl)

end Stages

/-- The reference's final stage is the specification, index by index. -/
theorem ref_eq_spec (X : (⟨S8192x256, .f32⟩ : BufTy).Contents (Elt Ideal)) (A : (⟨S3x8192x8192, .f32⟩ : BufTy).Contents (Elt Ideal))
    (W : (⟨S3x256x256, .f32⟩ : BufTy).Contents (Elt Ideal)) (b : (⟨S3x256, .f32⟩ : BufTy).Contents (Elt Ideal)) :
    val_main_v77 (F := Ideal) X A W b = Cert.Spec.G X A W b := by
  funext i
  obtain ⟨n, j, rfl⟩ : ∃ (n : Fin 8192) (j : Fin 256), i = ix2 n j := ⟨i 0, i 1, eq_ix2 i⟩
  rw [Cert.Spec.G_apply, val_main_v77_apply, val_main_v76_apply, val_main_v69_apply, val_main_v29_apply,
    val_main_v22_apply, val_main_v9_apply, lin0_at, bias0_at, lin1_at, bias1_at, lin2_at, bias2_at,
    val_main_call0_v0_apply, val_main_call0_cst_apply]
  rfl

end Cert.RefValue

end
-- ==== Proof.lean ====
/-
  The five claims of the certificate.

  The kernel computes one graph-convolution layer of Volterra order two: with `M p = A p · X` for the three
  adjacency powers, `relu (X·W₀ᵀ + b₀ + (M 0 + M 1 + M 2)·W₁ᵀ + 3 b₁ + (∑_{p ≤ q} M p * M q)·W₂ᵀ + 6 b₂)`.
  It tiles the rows in sixteen tiles of 512 and the contraction in eight steps of 1024 columns, keeping the three
  partial products in a scratch from step to step and writing a tile's result at its last step.

  Frames: the kernel program's, at the word level and idealized, is one proof generic in the float instance (the
  node features reach the kernel through two windows, so the launch splits that array's share between them); the
  reference's is its run.  The idealization rewrote nothing, so `preserves` is trivial.  The algebraic claim: the
  idealized kernel's result array is the specification `Cert.Spec.G` of the arguments (a sum over 8192 columns
  taken in eight blocks; five additions grouped differently; no finiteness is needed, only that addition on the
  extended reals is associative and commutative), and so is the reference's.
-/
import proofs.«104423_j26173530702105_1_alg».proof.Defs
import proofs.«104423_j26173530702105_1_alg».proof.Proof.Gen.Kernel
import proofs.«104423_j26173530702105_1_alg».proof.Proof.Gen.KernelIdeal
import proofs.«104423_j26173530702105_1_alg».proof.Proof.Gen.ReferenceIdeal
import proofs.«104423_j26173530702105_1_alg».proof.Proof.Gen.Pre_finite_inputs
import proofs.«104423_j26173530702105_1_alg».proof.Proof.Gen.ReferenceIdeal.Run
import proofs.«104423_j26173530702105_1_alg».proof.Proof.Gen.ReferenceIdeal.Read
import proofs.«104423_j26173530702105_1_alg».proof.Proof.KernelFrame.Launch
import proofs.«104423_j26173530702105_1_alg».proof.Proof.KernelIdealFrame.Launch
import proofs.«104423_j26173530702105_1_alg».proof.Proof.KernelValue.Final
import proofs.«104423_j26173530702105_1_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

/-- The reference is a straight line of host operations: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with their result at the specification of the (agreeing) arguments. -/
theorem algebraic : Cert.algebraic_KernelIdeal_ReferenceIdeal := by
  intro m ρ m' ρ' _ hagree
  refine ⟨fun c => Cert.KernelIdeal.Hand.spec m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, Cert.RefValue.ref_eq_spec, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
